-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S4096 : Shape := ⟨1, ![4096]⟩
abbrev S4x1024 : Shape := ⟨2, ![4, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4x1024 .f32) (main_arg8 : FVec F S1024 .f32) (main_arg9 : FVec F S1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4096 .f32) (main_arg5 : FVec F S1024x4096 .f32) (main_arg6 : FVec F S4x1024 .f32) (main_arg7 : FVec F S4x1024 .f32) (main_arg8 : FVec F S1024 .f32) (main_arg9 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024 .f32) (main_arg2 : FVec F S4096x1024 .f32) (main_arg3 : FVec F S1024x4096 .f32) (main_arg4 : FVec F S4096 .f32) (main_arg5 : FVec F S1024x4096 .f32) (main_arg6 : FVec F S4x1024 .f32) (main_arg7 : FVec F S4x1024 .f32) (main_arg8 : FVec F S1024 .f32) (main_arg9 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S1024x4096 : Shape := ⟨2, ![1024, 4096]⟩
abbrev S4096 : Shape := ⟨1, ![4096]⟩
abbrev S4x1024 : Shape := ⟨2, ![4, 1024]⟩
abbrev S1024 : Shape := ⟨1, ![1024]⟩
abbrev S1x4096 : Shape := ⟨2, ![1, 4096]⟩
abbrev S1x1024 : Shape := ⟨2, ![1, 1024]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096, .f32⟩
  | .hbm, ⟨5, _⟩ => ⟨S1024x4096, .f32⟩
  | .hbm, ⟨6, _⟩ => ⟨S4x1024, .f32⟩
  | .hbm, ⟨7, _⟩ => ⟨S4x1024, .f32⟩
  | .hbm, ⟨8, _⟩ => ⟨S1024, .f32⟩
  | .hbm, ⟨9, _⟩ => ⟨S1024, .f32⟩
  | .hbm, ⟨10, _⟩ => ⟨S1024x4096, .bf16⟩
  | .hbm, ⟨11, _⟩ => ⟨S1024x4096, .bf16⟩
  | .hbm, ⟨12, _⟩ => ⟨S1x4096, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S4x1024, .f32⟩
  | .local _ .vmem, ⟨10, _⟩ => ⟨S4x1024, .f32⟩
  | .local _ .vmem, ⟨11, _⟩ => ⟨S1x1024, .f32⟩
  | .local _ .vmem, ⟨12, _⟩ => ⟨S1x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S4x1024_S1x1024_0_0 : ∀ a, (![0, 0] : Fin 2 → Nat) a + S1x1024.size a ≤ S4x1024.size a
  h_S1x1024 : 0 < S1x1024.numel
  reduces_S128x1024_S128 : S128x1024.Reduces [1] S128
  shapeCasts_S128_S128x1 : S128.ShapeCasts S128x1
  broadcasts_S128x1_S128x1024 : S128x1.Broadcasts S128x1024
  broadcasts_S1x1024_S128x1024 : S1x1024.Broadcasts S128x1024
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  inb_S1x1024_S1x1024_0_0 : ∀ a, (![0, 0] : Fin 2 → Nat) a + S1x1024.size a ≤ S1x1024.size a
  shapeCasts_S1x1024_S1x1024 : S1x1024.ShapeCasts S1x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S4096x1024.size a
  hwx0_11 : ∀ i : grid0.Coords, EltTy.bits .f32 = 32 ∨ (Rect.block (s := S4096x1024) S128x1024.size (cc0_transform_11 i) (hinb0_11 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S4096 : Shape := ⟨1, ![4096]⟩
abbrev S4x1024 : Shape := ⟨2, ![4, 1024]⟩
abbrev S1024 : Shape := ⟨1, ![1024]⟩
abbrev S4096x4096 : Shape := ⟨2, ![4096, 4096]⟩
abbrev S1x4096 : Shape := ⟨2, ![1, 4096]⟩
abbrev S4096x4x1024 : Shape := ⟨3, ![4096, 4, 1024]⟩
abbrev S_ : Shape := ⟨0, ![]⟩
abbrev S4096x4 : Shape := ⟨2, ![4096, 4]⟩
abbrev S4096x4x1 : Shape := ⟨3, ![4096, 4, 1]⟩
abbrev S1x4x1024 : Shape := ⟨3, ![1, 4, 1024]⟩
abbrev S4096x1x1024 : Shape := ⟨3, ![4096, 1, 1024]⟩
abbrev S4096x1 : Shape := ⟨2, ![4096, 1]⟩
abbrev S1x1024 : Shape := ⟨2, ![1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096, .f32⟩
  | .hbm, ⟨5, _⟩ => ⟨S1024x4096, .f32⟩
  | .hbm, ⟨6, _⟩ => ⟨S4x1024, .f32⟩
  | .hbm, ⟨7, _⟩ => ⟨S4x1024, .f32⟩
  | .hbm, ⟨8, _⟩ => ⟨S1024, .f32⟩
  | .hbm, ⟨9, _⟩ => ⟨S1024, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4x1024, .f32⟩
  | .hbm, ⟨17, _⟩ => ⟨S_, .f32⟩
  | .hbm, ⟨18, _⟩ => ⟨S4096x4, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x1024, .f32⟩
  | .hbm, ⟨24, _⟩ => ⟨S4096x4x1024, .f32⟩
  | .hbm, ⟨25, _⟩ => ⟨S4096x4x1024, .f32⟩
  | .hbm, ⟨26, _⟩ => ⟨S_, .f32⟩
  | .hbm, ⟨27, _⟩ => ⟨S4096x4, .f32⟩
  | .hbm, ⟨28, _⟩ => ⟨S4096x4x1, .f32⟩
  | .hbm, ⟨29, _⟩ => ⟨S_, .f32⟩
  | .hbm, ⟨30, _⟩ => ⟨S4096x4x1, .f32⟩
  | .hbm, ⟨31, _⟩ => ⟨S4096x4x1, .f32⟩
  | .hbm, ⟨32, _⟩ => ⟨S4096x4x1024, .f32⟩
  | .hbm, ⟨33, _⟩ => ⟨S4096x4x1024, .f32⟩
  | .hbm, ⟨34, _⟩ => ⟨S_, .f32⟩
  | .hbm, ⟨35, _⟩ => ⟨S4096x4x1, .f32⟩
  | .hbm, ⟨36, _⟩ => ⟨S4096x4x1, .f32⟩
  | .hbm, ⟨37, _⟩ => ⟨S4096x4x1, .f32⟩
  | .hbm, ⟨38, _⟩ => ⟨S4096x4x1024, .f32⟩
  | .hbm, ⟨39, _⟩ => ⟨S4096x4x1024, .f32⟩
  | .hbm, ⟨40, _⟩ => ⟨S1x4x1024, .f32⟩
  | .hbm, ⟨41, _⟩ => ⟨S4096x4x1024, .f32⟩
  | .hbm, ⟨42, _⟩ => ⟨S4096x4x1024, .f32⟩
  | .hbm, ⟨43, _⟩ => ⟨S1x4x1024, .f32⟩
  | .hbm, ⟨44, _⟩ => ⟨S4096x4x1024, .f32⟩
  | .hbm, ⟨45, _⟩ => ⟨S4096x4x1024, .f32⟩
  | .hbm, ⟨46, _⟩ => ⟨S4096x1x1024, .f32⟩
  | .hbm, ⟨47, _⟩ => ⟨S4096x1024, .f32⟩
  | .hbm, ⟨48, _⟩ => ⟨S4096x1x1024, .f32⟩
  | .hbm, ⟨49, _⟩ => ⟨S4096x1024, .f32⟩
  | .hbm, ⟨50, _⟩ => ⟨S4096x1x1024, .f32⟩
  | .hbm, ⟨51, _⟩ => ⟨S4096x1024, .f32⟩
  | .hbm, ⟨52, _⟩ => ⟨S4096x1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S4096x1, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S4096x1024, .f32⟩
  | .hbm, ⟨107, _⟩ => ⟨S4096x1024, .f32⟩
  | .hbm, ⟨108, _⟩ => ⟨S1x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x4x1024 : S4096x4096.ShapeCasts S4096x4x1024
  reducesTo_S4096x4x1024_S4096x4_d2 : S4096x4x1024.ReducesTo [2] S4096x4
  h_S_ : 0 < S_.numel
  bcast_S4096x4_S4096x4x1_0_1 : S4096x4.BroadcastsInDim S4096x4x1 (![0, 1] : Fin 2 → Fin S4096x4x1.rank)
  bcast_S_S4096x4x1 : S_.BroadcastsInDim S4096x4x1 (![] : Fin 0 → Fin S4096x4x1.rank)
  bcast_S4096x4x1_S4096x4x1024_0_1_2 : S4096x4x1.BroadcastsInDim S4096x4x1024 (![0, 1, 2] : Fin 3 → Fin S4096x4x1024.rank)
  bcast_S4x1024_S1x4x1024_1_2 : S4x1024.BroadcastsInDim S1x4x1024 (![1, 2] : Fin 2 → Fin S1x4x1024.rank)
  bcast_S1x4x1024_S4096x4x1024_0_1_2 : S1x4x1024.BroadcastsInDim S4096x4x1024 (![0, 1, 2] : Fin 3 → Fin S4096x4x1024.rank)
  slices_S4096x4x1024_S4096x1x1024_0_0_0 : S4096x4x1024.Slices ![0, 0, 0] S4096x1x1024
  shapeCasts_S4096x1x1024_S4096x1024 : S4096x1x1024.ShapeCasts S4096x1024
  slices_S4096x4x1024_S4096x1x1024_0_1_0 : S4096x4x1024.Slices ![0, 1, 0] S4096x1x1024
  slices_S4096x4x1024_S4096x1x1024_0_2_0 : S4096x4x1024.Slices ![0, 2, 0] S4096x1x1024
  slices_S4096x4x1024_S4096x1x1024_0_3_0 : S4096x4x1024.Slices ![0, 3, 0] S4096x1x1024
  bcast_S_S4096x1024 : S_.BroadcastsInDim S4096x1024 (![] : Fin 0 → Fin S4096x1024.rank)
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.Spec.lean ====
/-
  The layer-normalised LSTM cell on the extended reals, one batch row at a time.

  A batch row's 4096 pre-activations are the row of `h` times `W_h`, plus the row of `x` times `W_x`, plus the bias.
  They fall into four gates of 1024 columns each (input, forget, cell candidate, output, in that order). Each gate is
  layer-normalised along its 1024 columns with its own scale and shift: subtract the mean, multiply by the reciprocal
  square root of the variance plus a floor, scale, shift. The new cell row is
  `logistic(forget) * c + logistic(input) * tanh(candidate)`; the new hidden row is `logistic(output)` times the `tanh`
  of the new cell row layer-normalised once more with the cell's scale and shift.

  Everything after the pre-activations is a function of ONE batch row, so the specification is written row by row, and
  the two result arrays read a row's function at a column. The row length 1024 and the variance floor are kept as the
  binary words both programs print, so they are never evaluated.
-/
import Idealize.ShloMosaic.PureOps.Ideal
import Idealize.ShloMosaic.Lib.ValueIdx

noncomputable section

open scoped BigOperators

namespace Cert.LstmSpec

open Idealize.ShloMosaic Idealize.ShloMosaic.ValueIdx

/-- The row length, 1024, as the f32 word both programs divide by. -/
def width : EReal := Ideal.ofBits .f32 0x44800000#32

/-- The variance floor, the f32 nearest to 1e-5, as the word both programs add. -/
def varFloor : EReal := Ideal.ofBits .f32 0x3727C5AC#32

/-- The mean of a row of 1024 entries. -/
def rowMean (z : Fin 1024 → EReal) : EReal := Ideal.div (∑ k : Fin 1024, z k) width

/-- The (biased) variance of a row: the mean of the squared deviations from the row's mean. -/
def rowVar (z : Fin 1024 → EReal) : EReal :=
  Ideal.div (∑ k : Fin 1024, (z k - rowMean z) * (z k - rowMean z)) width

/-- Layer normalisation of a row `z` with scale `γ` and shift `β`, at column `q`. -/
def layerNorm (z γ β : Fin 1024 → EReal) (q : Fin 1024) : EReal :=
  (z q - rowMean z) * Ideal.rsqrt (rowVar z + varFloor) * γ q + β q

/-- Column `q` of gate `g` among a row's 4096 pre-activations: column `1024 g + q`. -/
def gateCol (g : Fin 4) (q : Fin 1024) : Fin 4096 :=
  ⟨g.val * 1024 + q.val, by have := g.isLt; have := q.isLt; omega⟩

/-- Gate `g` of a row `P` of pre-activations, as a row of 1024 entries. -/
def gate (P : Fin 4096 → EReal) (g : Fin 4) : Fin 1024 → EReal := fun q => P (gateCol g q)

/-- The new cell row at column `q`, from the row's pre-activations `P`, the four gates' scales `γ` and shifts `β`, and
    the old cell row `c`. -/
def cellNext (P : Fin 4096 → EReal) (γ β : Fin 4 → Fin 1024 → EReal) (c : Fin 1024 → EReal) (q : Fin 1024) : EReal :=
  Ideal.logistic (layerNorm (gate P 1) (γ 1) (β 1) q) * c q
    + Ideal.logistic (layerNorm (gate P 0) (γ 0) (β 0) q) * Ideal.tanh (layerNorm (gate P 2) (γ 2) (β 2) q)

/-- The new hidden row at column `q`: the output gate times the `tanh` of the layer-normalised new cell row. -/
def hiddenNext (P : Fin 4096 → EReal) (γ β : Fin 4 → Fin 1024 → EReal) (c γc βc : Fin 1024 → EReal) (q : Fin 1024) :
    EReal :=
  Ideal.logistic (layerNorm (gate P 3) (γ 3) (β 3) q) * Ideal.tanh (layerNorm (cellNext P γ β c) γc βc q)

/-- A batch row's pre-activations: the row of `h` times `W_h`, plus the row of `x` times `W_x`, plus the bias. -/
def preRow (hrow xrow : Fin 1024 → EReal) (Wh Wx : Fin 1024 → Fin 4096 → EReal) (b : Fin 4096 → EReal) :
    Fin 4096 → EReal :=
  fun j => (∑ k : Fin 1024, hrow k * Wh k j + ∑ k : Fin 1024, xrow k * Wx k j) + b j

/-- Adding the bias before the second product instead of after it gives the same row: addition of extended reals is
    commutative and associative. -/
theorem preRow_bias_first (hrow xrow : Fin 1024 → EReal) (Wh Wx : Fin 1024 → Fin 4096 → EReal) (b : Fin 4096 → EReal)
    (j : Fin 4096) :
    (∑ k : Fin 1024, hrow k * Wh k j + b j) + ∑ k : Fin 1024, xrow k * Wx k j = preRow hrow xrow Wh Wx b j :=
  add_right_comm _ _ _

/-- Batch row `r` of the pre-activations, from the whole argument arrays. -/
def preOf (x h : (⟨2, ![4096, 1024]⟩ : Shape).Idx → EReal) (Wh Wx : (⟨2, ![1024, 4096]⟩ : Shape).Idx → EReal)
    (b : (⟨1, ![4096]⟩ : Shape).Idx → EReal) (r : Fin 4096) : Fin 4096 → EReal :=
  preRow (fun k => h (ix2 r k)) (fun k => x (ix2 r k)) (fun k j => Wh (ix2 k j)) (fun k j => Wx (ix2 k j))
    (fun j => b (ix1 j))

/-- The new cell array, entry by entry, as a function of the argument arrays. -/
def cellArray (x h c : (⟨2, ![4096, 1024]⟩ : Shape).Idx → EReal) (Wh : (⟨2, ![1024, 4096]⟩ : Shape).Idx → EReal)
    (b : (⟨1, ![4096]⟩ : Shape).Idx → EReal) (Wx : (⟨2, ![1024, 4096]⟩ : Shape).Idx → EReal)
    (lnG lnB : (⟨2, ![4, 1024]⟩ : Shape).Idx → EReal) : (⟨2, ![4096, 1024]⟩ : Shape).Idx → EReal :=
  fun i => cellNext (preOf x h Wh Wx b (i 0)) (fun g q => lnG (ix2 g q)) (fun g q => lnB (ix2 g q))
    (fun q => c (ix2 (i 0) q)) (i 1)

/-- The new hidden array, entry by entry, as a function of the argument arrays. -/
def hiddenArray (x h c : (⟨2, ![4096, 1024]⟩ : Shape).Idx → EReal) (Wh : (⟨2, ![1024, 4096]⟩ : Shape).Idx → EReal)
    (b : (⟨1, ![4096]⟩ : Shape).Idx → EReal) (Wx : (⟨2, ![1024, 4096]⟩ : Shape).Idx → EReal)
    (lnG lnB : (⟨2, ![4, 1024]⟩ : Shape).Idx → EReal) (cG cB : (⟨1, ![1024]⟩ : Shape).Idx → EReal) :
    (⟨2, ![4096, 1024]⟩ : Shape).Idx → EReal :=
  fun i => hiddenNext (preOf x h Wh Wx b (i 0)) (fun g q => lnG (ix2 g q)) (fun g q => lnB (ix2 g q))
    (fun q => c (ix2 (i 0) q)) (fun q => cG (ix1 q)) (fun q => cB (ix1 q)) (i 1)

end Cert.LstmSpec

end
-- ==== Proof.BlockRows.lean ====
/-
  Layer normalisation of the rows of a 128 × 1024 block, as a chain of vector operations, read at an entry.

  The chain: a lane sum over the columns, the sum cast to a column and divided by the row length (the row means), the
  means broadcast back and subtracted (the deviations), the same sum and division on the squared deviations (the row
  variances), the floor added, a reciprocal square root, that column broadcast back and multiplied in, then a scale
  row and a shift row broadcast down the block. At entry `(p, c)` every step reads row `p` only, so the chain is the
  row-wise layer normalisation of row `p` at column `c`.
-/
import Idealize.ShloMosaic.Lib.ValueLayout
import Idealize.ShloMosaic.PureOps.Ideal.Laws
import proofs.«119302_j47742856462402_1_alg».proof.Proof.LibKeepdims
import proofs.«119302_j47742856462402_1_alg».proof.Proof.Spec

noncomputable section

open scoped BigOperators

namespace Cert.BlockRows

open Idealize.ShloMosaic Idealize.ShloMosaic.ValueIdx Cert.LstmSpec

variable (hred : (⟨2, ![128, 1024]⟩ : Shape).Reduces [1] ⟨1, ![128]⟩) (hφ : FKind.Formats .f32)
  (hacc : (0x00000000#32 : BitVec 32) = FKind.add.neutral .f32 hφ)
  (hcast : (⟨1, ![128]⟩ : Shape).ShapeCasts ⟨2, ![128, 1]⟩)
  (hcol : (⟨2, ![128, 1]⟩ : Shape).Broadcasts ⟨2, ![128, 1024]⟩)
  (hrow : (⟨2, ![1, 1024]⟩ : Shape).Broadcasts ⟨2, ![128, 1024]⟩)

/-- Row `p` of a block, as a row of 1024 entries. -/
def rowOf (v : FVec Ideal ⟨2, ![128, 1024]⟩ .f32) (p : Fin 128) : Fin 1024 → EReal := fun k => v (ix2 p k)

/-- The column of row sums divided by the row length: one entry per row, the row's mean. -/
def meanCol (v : FVec Ideal ⟨2, ![128, 1024]⟩ .f32) : FVec Ideal ⟨2, ![128, 1]⟩ .f32 :=
  divf (shapeCast ⟨2, ![128, 1]⟩ (multiReduction .add [1] ⟨1, ![128]⟩ v 0x00000000#32 hred hφ hacc) hcast)
    (broadcast ⟨2, ![128, 1]⟩ (Scalar.ofBits .f32 0x44800000#32))

theorem meanCol_apply (v : FVec Ideal ⟨2, ![128, 1024]⟩ .f32) (p : Fin 128) (u : Fin 1) :
    meanCol hred hφ hacc hcast v (ix2 p u) = rowMean (rowOf v p) := by
  unfold meanCol
  rw [divf_apply, shapeCast_a_a1_apply, multiReduction_add_cols_apply]
  rfl

/-- The block minus its row means broadcast back over the columns. -/
def devs (v : FVec Ideal ⟨2, ![128, 1024]⟩ .f32) : FVec Ideal ⟨2, ![128, 1024]⟩ .f32 :=
  subf v (broadcastTo ⟨2, ![128, 1024]⟩ (meanCol hred hφ hacc hcast v) hcol)

theorem devs_apply (v : FVec Ideal ⟨2, ![128, 1024]⟩ .f32) (p : Fin 128) (c : Fin 1024) :
    devs hred hφ hacc hcast hcol v (ix2 p c) = v (ix2 p c) - rowMean (rowOf v p) := by
  unfold devs
  rw [subf_apply, broadcastTo_a1_ab_apply, meanCol_apply]

/-- The reciprocal square root of each row's variance plus the floor, as a column. -/
def scaleCol (v : FVec Ideal ⟨2, ![128, 1024]⟩ .f32) : FVec Ideal ⟨2, ![128, 1]⟩ .f32 :=
  rsqrt (addf (meanCol hred hφ hacc hcast (mulf (devs hred hφ hacc hcast hcol v) (devs hred hφ hacc hcast hcol v)))
    (broadcast ⟨2, ![128, 1]⟩ (Scalar.ofBits .f32 0x3727C5AC#32)))

theorem scaleCol_apply (v : FVec Ideal ⟨2, ![128, 1024]⟩ .f32) (p : Fin 128) (u : Fin 1) :
    scaleCol hred hφ hacc hcast hcol v (ix2 p u) = Ideal.rsqrt (rowVar (rowOf v p) + varFloor) := by
  unfold scaleCol
  show Ideal.rsqrt (meanCol hred hφ hacc hcast _ (ix2 p u) + _) = _
  rw [meanCol_apply]
  have hrow : rowOf (mulf (devs hred hφ hacc hcast hcol v) (devs hred hφ hacc hcast hcol v)) p
      = fun k => (rowOf v p k - rowMean (rowOf v p)) * (rowOf v p k - rowMean (rowOf v p)) := by
    funext k
    show mulf _ _ (ix2 p k) = _
    rw [mulf_apply, devs_apply]
    rfl
  rw [hrow]
  rfl

/-- The whole chain: deviations times the scale column, times a scale row, plus a shift row. -/
def blockNorm (v : FVec Ideal ⟨2, ![128, 1024]⟩ .f32) (γ β : FVec Ideal ⟨2, ![1, 1024]⟩ .f32) :
    FVec Ideal ⟨2, ![128, 1024]⟩ .f32 :=
  addf (mulf (mulf (devs hred hφ hacc hcast hcol v)
      (broadcastTo ⟨2, ![128, 1024]⟩ (scaleCol hred hφ hacc hcast hcol v) hcol))
    (broadcastTo ⟨2, ![128, 1024]⟩ γ hrow)) (broadcastTo ⟨2, ![128, 1024]⟩ β hrow)

/-- At entry `(p, c)` the chain is the layer normalisation of row `p`, with the scale and shift rows, at column `c`. -/
theorem blockNorm_apply (v : FVec Ideal ⟨2, ![128, 1024]⟩ .f32) (γ β : FVec Ideal ⟨2, ![1, 1024]⟩ .f32)
    (p : Fin 128) (c : Fin 1024) :
    blockNorm hred hφ hacc hcast hcol hrow v γ β (ix2 p c)
      = layerNorm (rowOf v p) (fun k => γ (ix2 (0 : Fin 1) k)) (fun k => β (ix2 (0 : Fin 1) k)) c := by
  unfold blockNorm
  rw [addf_apply, mulf_apply, mulf_apply, devs_apply, broadcastTo_a1_ab_apply, scaleCol_apply,
    broadcastTo_1b_ab_apply, broadcastTo_1b_ab_apply]
  rfl

end Cert.BlockRows

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.BlockPre.lean ====
/-
  A block's pre-activations read at an entry.

  For a block of 128 batch rows the pre-activations are the block of `h` times `W_h` into a zero accumulator, plus the
  block of `x` times `W_x` into a zero accumulator, plus the bias row broadcast down the block. The operands of the two
  products pass through a change of float format first, which is the identity on extended reals. At entry `(p, j)` this
  is row `p`'s pre-activation `j`: two sums over the 1024 contracted columns, and the bias at `j`.
-/
import Idealize.ShloMosaic.Lib.ValueLayout
import Idealize.ShloMosaic.Lib.Pipeline.Value
import proofs.«119302_j47742856462402_1_alg».proof.Proof.LibDot
import proofs.«119302_j47742856462402_1_alg».proof.Proof.Spec

noncomputable section

open scoped BigOperators

namespace Cert.BlockPre

open Idealize.ShloMosaic Idealize.ShloMosaic.ValueIdx Cert.LstmSpec

/-- The pre-activation block as the chain of vector operations the kernel runs. -/
def preBlock (d : DotDims ⟨2, ![128, 1024]⟩ ⟨2, ![1024, 4096]⟩ ⟨2, ![128, 4096]⟩)
    (hlt : FTy.bf16.bits < FTy.f32.bits)
    (hW : (⟨2, ![1024, 4096]⟩ : Shape).ShapeCasts ⟨2, ![1024, 4096]⟩)
    (hb : (⟨2, ![1, 4096]⟩ : Shape).ShapeCasts ⟨2, ![1, 4096]⟩)
    (hbr : (⟨2, ![1, 4096]⟩ : Shape).Broadcasts ⟨2, ![128, 4096]⟩)
    (xb hb' : FVec Ideal ⟨2, ![128, 1024]⟩ .f32) (Wh Wx : FVec Ideal ⟨2, ![1024, 4096]⟩ .bf16)
    (bias : FVec Ideal ⟨2, ![1, 4096]⟩ .f32) : FVec Ideal ⟨2, ![128, 4096]⟩ .f32 :=
  addf (addf
      (matmul d none (truncf .bf16 hb' hlt) (shapeCast ⟨2, ![1024, 4096]⟩ Wh hW)
        (constant ⟨2, ![128, 4096]⟩ .f32 0x00000000#32))
      (matmul d none (truncf .bf16 xb hlt) (shapeCast ⟨2, ![1024, 4096]⟩ Wx hW)
        (constant ⟨2, ![128, 4096]⟩ .f32 0x00000000#32)))
    (broadcastTo ⟨2, ![128, 4096]⟩ (shapeCast ⟨2, ![1, 4096]⟩ bias hb) hbr)

/-- Entry `(p, j)` of the pre-activation block is pre-activation `j` of row `p`. -/
theorem preBlock_apply (d : DotDims ⟨2, ![128, 1024]⟩ ⟨2, ![1024, 4096]⟩ ⟨2, ![128, 4096]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bf16.bits < FTy.f32.bits)
    (hW : (⟨2, ![1024, 4096]⟩ : Shape).ShapeCasts ⟨2, ![1024, 4096]⟩)
    (hb : (⟨2, ![1, 4096]⟩ : Shape).ShapeCasts ⟨2, ![1, 4096]⟩)
    (hbr : (⟨2, ![1, 4096]⟩ : Shape).Broadcasts ⟨2, ![128, 4096]⟩)
    (xb hb' : FVec Ideal ⟨2, ![128, 1024]⟩ .f32) (Wh Wx : FVec Ideal ⟨2, ![1024, 4096]⟩ .bf16)
    (bias : FVec Ideal ⟨2, ![1, 4096]⟩ .f32) (p : Fin 128) (j : Fin 4096) :
    preBlock d hlt hW hb hbr xb hb' Wh Wx bias (ix2 p j)
      = preRow (fun k => hb' (ix2 p k)) (fun k => xb (ix2 p k)) (fun k j => Wh (ix2 k j)) (fun k j => Wx (ix2 k j))
          (fun j => bias (ix2 (0 : Fin 1) j)) j := by
  unfold preBlock
  rw [addf_apply, addf_apply, LibDot.matmul_zero_apply d h1 h2 h3 h4 h5 h6,
    LibDot.matmul_zero_apply d h1 h2 h3 h4 h5 h6, broadcastTo_1b_ab_apply, shapeCast_self, shapeCast_self,
    shapeCast_self]
  rfl

end Cert.BlockPre

end
-- ==== Proof.BlockValue.lean ====
/-
  What the kernel body leaves in its two output blocks, read at an entry.

  For a block of 128 batch rows the body computes the block's pre-activations, layer-normalises the four gates' column
  ranges row by row, and combines them with the block of the old cell array. At entry `(p, q)` of the cell output that is
  the specification's new cell row, for the block's row `p`, at column `q`; at entry `(p, q)` of the hidden output it is
  the specification's new hidden row.
-/
import proofs.«119302_j47742856462402_1_alg».proof.Proof.Gen.KernelIdeal.Frame
import proofs.«119302_j47742856462402_1_alg».proof.Proof.BlockRows
import proofs.«119302_j47742856462402_1_alg».proof.Proof.BlockPre
import proofs.«119302_j47742856462402_1_alg».proof.Proof.Spec

noncomputable section

open scoped BigOperators

namespace Cert.BlockValue

open Idealize.ShloMosaic Idealize.ShloMosaic.ValueIdx Cert.LstmSpec Cert.KernelIdeal Cert.KernelIdeal.Gen
open Cert.BlockRows Cert.BlockPre

/-- A block row's pre-activations, from the blocks the body loads: `x0` the block of `x`, `x1` the block of `h`, `x3` and
    `x4` the two weight arrays, `x5` the bias row. -/
def blockPreRow (x0 x1 : Vec Ideal S128x1024 .f32) (x3 x4 : Vec Ideal S1024x4096 .bf16) (x5 : Vec Ideal S1x4096 .f32)
    (p : Fin 128) : Fin 4096 → EReal :=
  preRow (fun k => x1 (ix2 p k)) (fun k => x0 (ix2 p k)) (fun k j => x3 (ix2 k j)) (fun k j => x4 (ix2 k j))
    (fun j => x5 (ix2 (0 : Fin 1) j))

/-! ## The pieces of the body as the chains read in the two modules before this one -/

/-- The zero offsets of a whole-block rectangle, spelt as the printed literal. -/
theorem zeros2 : (![0, 0] : Fin 2 → Nat) = fun _ => 0 := by
  funext a
  match a with
  | ⟨0, _⟩ => rfl
  | ⟨1, _⟩ => rfl

/-- The block's pre-activations, with the printed program's dimension record and shape facts. -/
abbrev pre (x0 x1 : Vec Ideal S128x1024 .f32) (x3 x4 : Vec Ideal S1024x4096 .bf16) (x5 : Vec Ideal S1x4096 .f32) :
    FVec Ideal S128x4096 .f32 :=
  preBlock dot_S128x1024_S1024x4096_S128x4096_1_0_0_1_n_n bitsLt_bf16_f32 shapeCasts_S1024x4096_S1024x4096
    shapeCasts_S1x4096_S1x4096 broadcasts_S1x4096_S128x4096 x0 x1 x3 x4 x5

theorem pre_apply (x0 x1 : Vec Ideal S128x1024 .f32) (x3 x4 : Vec Ideal S1024x4096 .bf16) (x5 : Vec Ideal S1x4096 .f32)
    (p : Fin 128) (j : Fin 4096) : pre x0 x1 x3 x4 x5 (ix2 p j) = blockPreRow x0 x1 x3 x4 x5 p j :=
  preBlock_apply dot_S128x1024_S1024x4096_S128x4096_1_0_0_1_n_n rfl rfl rfl rfl rfl rfl bitsLt_bf16_f32
    shapeCasts_S1024x4096_S1024x4096 shapeCasts_S1x4096_S1x4096 broadcasts_S1x4096_S128x4096 x0 x1 x3 x4 x5 p j

/-- Layer normalisation of a block's rows, with the printed program's shape facts. -/
abbrev norm (v : FVec Ideal S128x1024 .f32) (γ β : FVec Ideal S1x1024 .f32) : FVec Ideal S128x1024 .f32 :=
  blockNorm reduces_S128x1024_S128 (.inl rfl) rfl shapeCasts_S128_S128x1 broadcasts_S128x1_S128x1024
    broadcasts_S1x1024_S128x1024 v γ β

theorem norm_apply (v : FVec Ideal S128x1024 .f32) (γ β : FVec Ideal S1x1024 .f32) (p : Fin 128) (q : Fin 1024) :
    norm v γ β (ix2 p q)
      = layerNorm (rowOf v p) (fun k => γ (ix2 (0 : Fin 1) k)) (fun k => β (ix2 (0 : Fin 1) k)) q :=
  blockNorm_apply reduces_S128x1024_S128 (.inl rfl) rfl shapeCasts_S128_S128x1 broadcasts_S128x1_S128x1024
    broadcasts_S1x1024_S128x1024 v γ β p q

/-! ## Gates as column ranges, scale and shift rows as rows of a [4, 1024] array -/

/-- Row `p` of the column range of gate 0 is gate 0 of row `p`. -/
theorem row_gate0 (z : FVec Ideal S128x4096 .f32) (p : Fin 128) :
    rowOf (extractStridedSlice S128x1024 ![0, 0] z slices_S128x4096_o0_0_S128x1024) p
      = gate (fun j => z (ix2 p j)) 0 := by
  funext k
  exact slice2_axis1_apply 0 z slices_S128x4096_o0_0_S128x1024 p k (gateCol 0 k) (by show 0 * 1024 + k.val = 0 + k.val; omega)

theorem row_gate1 (z : FVec Ideal S128x4096 .f32) (p : Fin 128) :
    rowOf (extractStridedSlice S128x1024 ![0, 1024] z slices_S128x4096_o0_1024_S128x1024) p
      = gate (fun j => z (ix2 p j)) 1 := by
  funext k
  exact slice2_axis1_apply 1024 z slices_S128x4096_o0_1024_S128x1024 p k (gateCol 1 k) (by show 1 * 1024 + k.val = 1024 + k.val; omega)

theorem row_gate2 (z : FVec Ideal S128x4096 .f32) (p : Fin 128) :
    rowOf (extractStridedSlice S128x1024 ![0, 2048] z slices_S128x4096_o0_2048_S128x1024) p
      = gate (fun j => z (ix2 p j)) 2 := by
  funext k
  exact slice2_axis1_apply 2048 z slices_S128x4096_o0_2048_S128x1024 p k (gateCol 2 k) (by show 2 * 1024 + k.val = 2048 + k.val; omega)

theorem row_gate3 (z : FVec Ideal S128x4096 .f32) (p : Fin 128) :
    rowOf (extractStridedSlice S128x1024 ![0, 3072] z slices_S128x4096_o0_3072_S128x1024) p
      = gate (fun j => z (ix2 p j)) 3 := by
  funext k
  exact slice2_axis1_apply 3072 z slices_S128x4096_o0_3072_S128x1024 p k (gateCol 3 k) (by show 3 * 1024 + k.val = 3072 + k.val; omega)

/-- A load of one row of a [4, 1024] array reads that row. -/
theorem ld_row0 (x : Vec Ideal S4x1024 .f32) (k : Fin 1024) : View.ld x r0_3 (ix2 (0 : Fin 1) k) = x (ix2 (0 : Fin 4) k) := by
  show x _ = x _
  congr 1
  funext a
  apply Fin.ext
  match a with
  | ⟨0, _⟩ => rfl
  | ⟨1, _⟩ => show 0 + 1 * k.val = k.val; omega

theorem ld_row1 (x : Vec Ideal S4x1024 .f32) (k : Fin 1024) : View.ld x r0_4 (ix2 (0 : Fin 1) k) = x (ix2 (1 : Fin 4) k) := by
  show x _ = x _
  congr 1
  funext a
  apply Fin.ext
  match a with
  | ⟨0, _⟩ => rfl
  | ⟨1, _⟩ => show 0 + 1 * k.val = k.val; omega

theorem ld_row2 (x : Vec Ideal S4x1024 .f32) (k : Fin 1024) : View.ld x r0_5 (ix2 (0 : Fin 1) k) = x (ix2 (2 : Fin 4) k) := by
  show x _ = x _
  congr 1
  funext a
  apply Fin.ext
  match a with
  | ⟨0, _⟩ => rfl
  | ⟨1, _⟩ => show 0 + 1 * k.val = k.val; omega

theorem ld_row3 (x : Vec Ideal S4x1024 .f32) (k : Fin 1024) : View.ld x r0_6 (ix2 (0 : Fin 1) k) = x (ix2 (3 : Fin 4) k) := by
  show x _ = x _
  congr 1
  funext a
  apply Fin.ext
  match a with
  | ⟨0, _⟩ => rfl
  | ⟨1, _⟩ => show 0 + 1 * k.val = k.val; omega

/-! ## The cell output -/

/-- The cell output block as a chain over the pre-activation block `z`, the scale and shift rows and the old cell block. -/
def cellChain (z : FVec Ideal S128x4096 .f32) (γ0 β0 γ1 β1 γ2 β2 : FVec Ideal S1x1024 .f32)
    (c : FVec Ideal S128x1024 .f32) : FVec Ideal S128x1024 .f32 :=
  addf (mulf (logistic (norm (extractStridedSlice S128x1024 ![0, 1024] z slices_S128x4096_o0_1024_S128x1024) γ1 β1)) c)
    (mulf (logistic (norm (extractStridedSlice S128x1024 ![0, 0] z slices_S128x4096_o0_0_S128x1024) γ0 β0))
      (tanh (norm (extractStridedSlice S128x1024 ![0, 2048] z slices_S128x4096_o0_2048_S128x1024) γ2 β2)))

/-- At entry `(p, q)` the chain is the new cell row of the block's row `p`, whose pre-activations are row `p` of `z`. -/
theorem cellChain_apply (z : FVec Ideal S128x4096 .f32) (γ0 β0 γ1 β1 γ2 β2 : FVec Ideal S1x1024 .f32)
    (c : FVec Ideal S128x1024 .f32) (γ β : Fin 4 → Fin 1024 → EReal)
    (h0 : ∀ k, γ0 (ix2 (0 : Fin 1) k) = γ 0 k) (h0' : ∀ k, β0 (ix2 (0 : Fin 1) k) = β 0 k)
    (h1 : ∀ k, γ1 (ix2 (0 : Fin 1) k) = γ 1 k) (h1' : ∀ k, β1 (ix2 (0 : Fin 1) k) = β 1 k)
    (h2 : ∀ k, γ2 (ix2 (0 : Fin 1) k) = γ 2 k) (h2' : ∀ k, β2 (ix2 (0 : Fin 1) k) = β 2 k)
    (p : Fin 128) (q : Fin 1024) :
    cellChain z γ0 β0 γ1 β1 γ2 β2 c (ix2 p q)
      = cellNext (fun j => z (ix2 p j)) γ β (fun k => c (ix2 p k)) q := by
  unfold cellChain
  show Ideal.logistic (norm _ γ1 β1 (ix2 p q)) * c (ix2 p q)
    + Ideal.logistic (norm _ γ0 β0 (ix2 p q)) * Ideal.tanh (norm _ γ2 β2 (ix2 p q)) = _
  rw [norm_apply, norm_apply, norm_apply, row_gate0, row_gate1, row_gate2, funext h0, funext h0', funext h1, funext h1',
    funext h2, funext h2']
  rfl

/-- Entry `(p, q)` of the cell output block is the new cell row of block row `p` at column `q`. -/
theorem cellBlock_apply (x0 x1 x2 : Vec Ideal S128x1024 .f32) (x3 x4 : Vec Ideal S1024x4096 .bf16)
    (x5 : Vec Ideal S1x4096 .f32) (x6 x7 : Vec Ideal S4x1024 .f32) (x8 x9 : Vec Ideal S1x1024 .f32)
    (p : Fin 128) (q : Fin 1024) :
    out0_11 (F := Ideal) x0 x1 x2 x3 x4 x5 x6 x7 x8 x9 (ix2 p q)
      = cellNext (blockPreRow x0 x1 x3 x4 x5 p) (fun g k => x6 (ix2 g k)) (fun g k => x7 (ix2 g k))
          (fun k => x2 (ix2 p k)) q := by
  unfold out0_11
  rw [View.canon_unit_zero zeros2]
  simp only [View.ld_unit_zero (S := S128x1024) zeros2, View.ld_unit_zero (S := S1024x4096) zeros2,
    View.ld_unit_zero (S := S1x4096) zeros2]
  refine (cellChain_apply (pre x0 x1 x3 x4 x5) (View.ld x6 r0_3) (View.ld x7 r0_3) (View.ld x6 r0_4) (View.ld x7 r0_4)
    (View.ld x6 r0_5) (View.ld x7 r0_5) x2 (fun g k => x6 (ix2 g k)) (fun g k => x7 (ix2 g k))
    (ld_row0 x6) (ld_row0 x7) (ld_row1 x6) (ld_row1 x7) (ld_row2 x6) (ld_row2 x7) p q).trans ?_
  congr 1
  funext j
  exact pre_apply x0 x1 x3 x4 x5 p j

/-! ## The hidden output -/

/-- The hidden output block as a chain: the output gate's logistic times the `tanh` of the cell chain layer-normalised
    along its rows with the cell's scale and shift rows. -/
def hiddenChain (z : FVec Ideal S128x4096 .f32) (γ0 β0 γ1 β1 γ2 β2 γ3 β3 : FVec Ideal S1x1024 .f32)
    (c : FVec Ideal S128x1024 .f32) (γc βc : FVec Ideal S1x1024 .f32) : FVec Ideal S128x1024 .f32 :=
  mulf (logistic (norm (extractStridedSlice S128x1024 ![0, 3072] z slices_S128x4096_o0_3072_S128x1024) γ3 β3))
    (tanh (norm (cellChain z γ0 β0 γ1 β1 γ2 β2 c) γc βc))

/-- At entry `(p, q)` the chain is the new hidden row of the block's row `p`. -/
theorem hiddenChain_apply (z : FVec Ideal S128x4096 .f32) (γ0 β0 γ1 β1 γ2 β2 γ3 β3 : FVec Ideal S1x1024 .f32)
    (c : FVec Ideal S128x1024 .f32) (γc βc : FVec Ideal S1x1024 .f32) (γ β : Fin 4 → Fin 1024 → EReal)
    (h0 : ∀ k, γ0 (ix2 (0 : Fin 1) k) = γ 0 k) (h0' : ∀ k, β0 (ix2 (0 : Fin 1) k) = β 0 k)
    (h1 : ∀ k, γ1 (ix2 (0 : Fin 1) k) = γ 1 k) (h1' : ∀ k, β1 (ix2 (0 : Fin 1) k) = β 1 k)
    (h2 : ∀ k, γ2 (ix2 (0 : Fin 1) k) = γ 2 k) (h2' : ∀ k, β2 (ix2 (0 : Fin 1) k) = β 2 k)
    (h3 : ∀ k, γ3 (ix2 (0 : Fin 1) k) = γ 3 k) (h3' : ∀ k, β3 (ix2 (0 : Fin 1) k) = β 3 k)
    (p : Fin 128) (q : Fin 1024) :
    hiddenChain z γ0 β0 γ1 β1 γ2 β2 γ3 β3 c γc βc (ix2 p q)
      = hiddenNext (fun j => z (ix2 p j)) γ β (fun k => c (ix2 p k)) (fun k => γc (ix2 (0 : Fin 1) k))
          (fun k => βc (ix2 (0 : Fin 1) k)) q := by
  unfold hiddenChain
  show Ideal.logistic (norm _ γ3 β3 (ix2 p q)) * Ideal.tanh (norm (cellChain z γ0 β0 γ1 β1 γ2 β2 c) γc βc (ix2 p q)) = _
  have hrow : rowOf (cellChain z γ0 β0 γ1 β1 γ2 β2 c) p = cellNext (fun j => z (ix2 p j)) γ β (fun k => c (ix2 p k)) := by
    funext k
    exact cellChain_apply z γ0 β0 γ1 β1 γ2 β2 c γ β h0 h0' h1 h1' h2 h2' p k
  rw [norm_apply, norm_apply, row_gate3, hrow, funext h3, funext h3']
  rfl

/-- Entry `(p, q)` of the hidden output block is the new hidden row of block row `p` at column `q`. -/
theorem hiddenBlock_apply (x0 x1 x2 : Vec Ideal S128x1024 .f32) (x3 x4 : Vec Ideal S1024x4096 .bf16)
    (x5 : Vec Ideal S1x4096 .f32) (x6 x7 : Vec Ideal S4x1024 .f32) (x8 x9 : Vec Ideal S1x1024 .f32)
    (p : Fin 128) (q : Fin 1024) :
    out0_10 (F := Ideal) x0 x1 x2 x3 x4 x5 x6 x7 x8 x9 (ix2 p q)
      = hiddenNext (blockPreRow x0 x1 x3 x4 x5 p) (fun g k => x6 (ix2 g k)) (fun g k => x7 (ix2 g k))
          (fun k => x2 (ix2 p k)) (fun k => x8 (ix2 (0 : Fin 1) k)) (fun k => x9 (ix2 (0 : Fin 1) k)) q := by
  unfold out0_10
  rw [View.canon_unit_zero zeros2]
  simp only [View.ld_unit_zero (S := S128x1024) zeros2, View.ld_unit_zero (S := S1024x4096) zeros2,
    View.ld_unit_zero (S := S1x4096) zeros2, View.ld_unit_zero (S := S1x1024) zeros2]
  refine (hiddenChain_apply (pre x0 x1 x3 x4 x5) (View.ld x6 r0_3) (View.ld x7 r0_3) (View.ld x6 r0_4) (View.ld x7 r0_4)
    (View.ld x6 r0_5) (View.ld x7 r0_5) (View.ld x6 r0_6) (View.ld x7 r0_6) x2
    (shapeCast S1x1024 x8 shapeCasts_S1x1024_S1x1024) (shapeCast S1x1024 x9 shapeCasts_S1x1024_S1x1024)
    (fun g k => x6 (ix2 g k)) (fun g k => x7 (ix2 g k))
    (ld_row0 x6) (ld_row0 x7) (ld_row1 x6) (ld_row1 x7) (ld_row2 x6) (ld_row2 x7) (ld_row3 x6) (ld_row3 x7) p q).trans ?_
  rw [shapeCast_self, shapeCast_self]
  congr 1
  funext j
  exact pre_apply x0 x1 x3 x4 x5 p j

end Cert.BlockValue

end
-- ==== Proof.KernelRun.lean ====
/-
  From the kernel's blocks to its two result arrays.

  Grid point `t` stages rows `128 t … 128 t + 127` of `x`, `h` and `c`, the whole of every other operand, and writes rows
  `128 t … 128 t + 127` of the two results. Every row of a result is written by exactly one point, and what it writes is
  the specification's row function of that row of the arguments; so each result array is the specification's array.
-/
import proofs.«119302_j47742856462402_1_alg».proof.Proof.KernelBlocks
import proofs.«119302_j47742856462402_1_alg».proof.Proof.BlockValue
import Idealize.ShloMosaic.Lib.ValueLayout
import Idealize.ShloMosaic.Lib.StableHlo.Run

noncomputable section

namespace Cert.KernelRun

open Idealize.ShloMosaic Idealize.ShloMosaic.TcCoe Idealize.SL.Sem Idealize.ShloMosaic.ValueIdx Cert.LstmSpec

section Blocks

open Cert.KernelIdeal Cert.KernelIdeal.Gen

variable (m : (ℓ : Loc nD τ sig) → Buf (Elt Ideal) ℓ)

/-! ## The index maps, and each staged block as a part of its array -/

/-- The printed index maps over the grid: the three row-blocked inputs and the two outputs take block `(t, 0)` at point
    `t`; every other window takes block `(0, 0)`. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The grid has 32 points. -/
theorem point_lt (t : Fin cfg0.N) : t.val < 32 := t.isLt

/-- Row `p` of point `t`'s block is row `128 t + p` of the array, one of its 4096. -/
theorem row_lt (t : Fin cfg0.N) (p : Fin 128) : 128 * t.val + p.val < 4096 := by
  have := point_lt t; have := p.isLt; omega

/-- Point `t`'s block of `x` at `(p, k)` is the array at `(128 t + p, k)`. -/
theorem iblk0_apply (c : Dev nD) (t : Fin cfg0.N) (p : Fin 128) (k : Fin 1024) :
    (iblk m c 0 t : Vec Ideal S128x1024 .f32) (ix2 p k)
      = (m ((c : Thread nD τ).loc main_arg0) : S4096x1024.Idx → EReal) (ix2 ⟨128 * t.val + p.val, row_lt t p⟩ k) := by
  have e0 : win0_0.index t (0 : Fin 2) = t.val := (index_facts t).1.1
  have e1 : win0_0.index t (1 : Fin 2) = 0 := (index_facts t).1.2
  show (V m c main_arg0 : S4096x1024.Idx → EReal) (((cfg0.win 0).blk t).view.emb (ix2 p k)) = _
  rw [V_main_arg0]
  refine congrArg _ (funext fun d => Fin.ext ?_)
  match d with
  | ⟨0, _⟩ => show win0_0.index t (0 : Fin 2) * 128 + 1 * p.val = 128 * t.val + p.val; rw [e0]; omega
  | ⟨1, _⟩ => show win0_0.index t (1 : Fin 2) * 1024 + 1 * k.val = k.val; rw [e1]; omega

/-- Point `t`'s block of `h` at `(p, k)` is the array at `(128 t + p, k)`. -/
theorem iblk1_apply (c : Dev nD) (t : Fin cfg0.N) (p : Fin 128) (k : Fin 1024) :
    (iblk m c 1 t : Vec Ideal S128x1024 .f32) (ix2 p k)
      = (m ((c : Thread nD τ).loc main_arg1) : S4096x1024.Idx → EReal) (ix2 ⟨128 * t.val + p.val, row_lt t p⟩ k) := by
  have e0 : win0_1.index t (0 : Fin 2) = t.val := (index_facts t).2.1.1
  have e1 : win0_1.index t (1 : Fin 2) = 0 := (index_facts t).2.1.2
  show (V m c main_arg1 : S4096x1024.Idx → EReal) (((cfg0.win 1).blk t).view.emb (ix2 p k)) = _
  rw [V_main_arg1]
  refine congrArg _ (funext fun d => Fin.ext ?_)
  match d with
  | ⟨0, _⟩ => show win0_1.index t (0 : Fin 2) * 128 + 1 * p.val = 128 * t.val + p.val; rw [e0]; omega
  | ⟨1, _⟩ => show win0_1.index t (1 : Fin 2) * 1024 + 1 * k.val = k.val; rw [e1]; omega

/-- Point `t`'s block of the old cell array at `(p, k)` is the array at `(128 t + p, k)`. -/
theorem iblk2_apply (c : Dev nD) (t : Fin cfg0.N) (p : Fin 128) (k : Fin 1024) :
    (iblk m c 2 t : Vec Ideal S128x1024 .f32) (ix2 p k)
      = (m ((c : Thread nD τ).loc main_arg2) : S4096x1024.Idx → EReal) (ix2 ⟨128 * t.val + p.val, row_lt t p⟩ k) := by
  have e0 : win0_2.index t (0 : Fin 2) = t.val := (index_facts t).2.2.1.1
  have e1 : win0_2.index t (1 : Fin 2) = 0 := (index_facts t).2.2.1.2
  show (V m c main_arg2 : S4096x1024.Idx → EReal) (((cfg0.win 2).blk t).view.emb (ix2 p k)) = _
  rw [V_main_arg2]
  refine congrArg _ (funext fun d => Fin.ext ?_)
  match d with
  | ⟨0, _⟩ => show win0_2.index t (0 : Fin 2) * 128 + 1 * p.val = 128 * t.val + p.val; rw [e0]; omega
  | ⟨1, _⟩ => show win0_2.index t (1 : Fin 2) * 1024 + 1 * k.val = k.val; rw [e1]; omega

/-- The first weight array is staged whole at every point: the block at `(a, b)` is the array at `(a, b)`. -/
theorem iblk3_apply (c : Dev nD) (t : Fin cfg0.N) (a : Fin 1024) (b : Fin 4096) :
    (iblk m c 3 t : Vec Ideal S1024x4096 .bf16) (ix2 a b) = (V m c main_v0 : S1024x4096.Idx → EReal) (ix2 a b) := by
  have e0 : win0_3.index t (0 : Fin 2) = 0 := (index_facts t).2.2.2.1.1
  have e1 : win0_3.index t (1 : Fin 2) = 0 := (index_facts t).2.2.2.1.2
  show (V m c main_v0 : S1024x4096.Idx → EReal) (((cfg0.win 3).blk t).view.emb (ix2 a b)) = _
  refine congrArg _ (funext fun d => Fin.ext ?_)
  match d with
  | ⟨0, _⟩ => show win0_3.index t (0 : Fin 2) * 1024 + 1 * a.val = a.val; rw [e0]; omega
  | ⟨1, _⟩ => show win0_3.index t (1 : Fin 2) * 4096 + 1 * b.val = b.val; rw [e1]; omega

/-- The second weight array is staged whole at every point: the block at `(a, b)` is the array at `(a, b)`. -/
theorem iblk4_apply (c : Dev nD) (t : Fin cfg0.N) (a : Fin 1024) (b : Fin 4096) :
    (iblk m c 4 t : Vec Ideal S1024x4096 .bf16) (ix2 a b) = (V m c main_v1 : S1024x4096.Idx → EReal) (ix2 a b) := by
  have e0 : win0_4.index t (0 : Fin 2) = 0 := (index_facts t).2.2.2.2.1.1
  have e1 : win0_4.index t (1 : Fin 2) = 0 := (index_facts t).2.2.2.2.1.2
  show (V m c main_v1 : S1024x4096.Idx → EReal) (((cfg0.win 4).blk t).view.emb (ix2 a b)) = _
  refine congrArg _ (funext fun d => Fin.ext ?_)
  match d with
  | ⟨0, _⟩ => show win0_4.index t (0 : Fin 2) * 1024 + 1 * a.val = a.val; rw [e0]; omega
  | ⟨1, _⟩ => show win0_4.index t (1 : Fin 2) * 4096 + 1 * b.val = b.val; rw [e1]; omega

/-- The bias row is staged whole at every point: the block at `(a, b)` is the array at `(a, b)`. -/
theorem iblk5_apply (c : Dev nD) (t : Fin cfg0.N) (a : Fin 1) (b : Fin 4096) :
    (iblk m c 5 t : Vec Ideal S1x4096 .f32) (ix2 a b) = (V m c main_v2 : S1x4096.Idx → EReal) (ix2 a b) := by
  have e0 : win0_5.index t (0 : Fin 2) = 0 := (index_facts t).2.2.2.2.2.1.1
  have e1 : win0_5.index t (1 : Fin 2) = 0 := (index_facts t).2.2.2.2.2.1.2
  show (V m c main_v2 : S1x4096.Idx → EReal) (((cfg0.win 5).blk t).view.emb (ix2 a b)) = _
  refine congrArg _ (funext fun d => Fin.ext ?_)
  match d with
  | ⟨0, _⟩ => show win0_5.index t (0 : Fin 2) * 1 + 1 * a.val = a.val; rw [e0]; omega
  | ⟨1, _⟩ => show win0_5.index t (1 : Fin 2) * 4096 + 1 * b.val = b.val; rw [e1]; omega

/-- The array of the gates' scales is staged whole at every point: the block at `(a, b)` is the array at `(a, b)`. -/
theorem iblk6_apply (c : Dev nD) (t : Fin cfg0.N) (a : Fin 4) (b : Fin 1024) :
    (iblk m c 6 t : Vec Ideal S4x1024 .f32) (ix2 a b) = (V m c main_arg6 : S4x1024.Idx → EReal) (ix2 a b) := by
  have e0 : win0_6.index t (0 : Fin 2) = 0 := (index_facts t).2.2.2.2.2.2.1.1
  have e1 : win0_6.index t (1 : Fin 2) = 0 := (index_facts t).2.2.2.2.2.2.1.2
  show (V m c main_arg6 : S4x1024.Idx → EReal) (((cfg0.win 6).blk t).view.emb (ix2 a b)) = _
  refine congrArg _ (funext fun d => Fin.ext ?_)
  match d with
  | ⟨0, _⟩ => show win0_6.index t (0 : Fin 2) * 4 + 1 * a.val = a.val; rw [e0]; omega
  | ⟨1, _⟩ => show win0_6.index t (1 : Fin 2) * 1024 + 1 * b.val = b.val; rw [e1]; omega

/-- The array of the gates' shifts is staged whole at every point: the block at `(a, b)` is the array at `(a, b)`. -/
theorem iblk7_apply (c : Dev nD) (t : Fin cfg0.N) (a : Fin 4) (b : Fin 1024) :
    (iblk m c 7 t : Vec Ideal S4x1024 .f32) (ix2 a b) = (V m c main_arg7 : S4x1024.Idx → EReal) (ix2 a b) := by
  have e0 : win0_7.index t (0 : Fin 2) = 0 := (index_facts t).2.2.2.2.2.2.2.1.1
  have e1 : win0_7.index t (1 : Fin 2) = 0 := (index_facts t).2.2.2.2.2.2.2.1.2
  show (V m c main_arg7 : S4x1024.Idx → EReal) (((cfg0.win 7).blk t).view.emb (ix2 a b)) = _
  refine congrArg _ (funext fun d => Fin.ext ?_)
  match d with
  | ⟨0, _⟩ => show win0_7.index t (0 : Fin 2) * 4 + 1 * a.val = a.val; rw [e0]; omega
  | ⟨1, _⟩ => show win0_7.index t (1 : Fin 2) * 1024 + 1 * b.val = b.val; rw [e1]; omega

/-- The cell's scale row is staged whole at every point: the block at `(a, b)` is the array at `(a, b)`. -/
theorem iblk8_apply (c : Dev nD) (t : Fin cfg0.N) (a : Fin 1) (b : Fin 1024) :
    (iblk m c 8 t : Vec Ideal S1x1024 .f32) (ix2 a b) = (V m c main_v3 : S1x1024.Idx → EReal) (ix2 a b) := by
  have e0 : win0_8.index t (0 : Fin 2) = 0 := (index_facts t).2.2.2.2.2.2.2.2.1.1
  have e1 : win0_8.index t (1 : Fin 2) = 0 := (index_facts t).2.2.2.2.2.2.2.2.1.2
  show (V m c main_v3 : S1x1024.Idx → EReal) (((cfg0.win 8).blk t).view.emb (ix2 a b)) = _
  refine congrArg _ (funext fun d => Fin.ext ?_)
  match d with
  | ⟨0, _⟩ => show win0_8.index t (0 : Fin 2) * 1 + 1 * a.val = a.val; rw [e0]; omega
  | ⟨1, _⟩ => show win0_8.index t (1 : Fin 2) * 1024 + 1 * b.val = b.val; rw [e1]; omega

/-- The cell's shift row is staged whole at every point: the block at `(a, b)` is the array at `(a, b)`. -/
theorem iblk9_apply (c : Dev nD) (t : Fin cfg0.N) (a : Fin 1) (b : Fin 1024) :
    (iblk m c 9 t : Vec Ideal S1x1024 .f32) (ix2 a b) = (V m c main_v4 : S1x1024.Idx → EReal) (ix2 a b) := by
  have e0 : win0_9.index t (0 : Fin 2) = 0 := (index_facts t).2.2.2.2.2.2.2.2.2.1.1
  have e1 : win0_9.index t (1 : Fin 2) = 0 := (index_facts t).2.2.2.2.2.2.2.2.2.1.2
  show (V m c main_v4 : S1x1024.Idx → EReal) (((cfg0.win 9).blk t).view.emb (ix2 a b)) = _
  refine congrArg _ (funext fun d => Fin.ext ?_)
  match d with
  | ⟨0, _⟩ => show win0_9.index t (0 : Fin 2) * 1 + 1 * a.val = a.val; rw [e0]; omega
  | ⟨1, _⟩ => show win0_9.index t (1 : Fin 2) * 1024 + 1 * b.val = b.val; rw [e1]; omega

/-! ## The arrays the host operations wrote before the call -/

/-- The first weight array as the kernel finds it is the argument: the change of float format is the identity on the
    extended reals. -/
theorem V_v0 (c : Dev nD) :
    (V m c main_v0 : S1024x4096.Idx → EReal) = (m ((c : Thread nD τ).loc main_arg3) : S1024x4096.Idx → EReal) := by
  dsimp only [Gen.V, Gen.hostOps0]
  after_results
  rfl

/-- The second weight array likewise. -/
theorem V_v1 (c : Dev nD) :
    (V m c main_v1 : S1024x4096.Idx → EReal) = (m ((c : Thread nD τ).loc main_arg5) : S1024x4096.Idx → EReal) := by
  dsimp only [Gen.V, Gen.hostOps0]
  after_results
  rfl

/-- The bias row at `(0, j)` is the bias at `j`. -/
theorem V_v2_apply (c : Dev nD) (u : Fin 1) (j : Fin 4096) :
    (V m c main_v2 : S1x4096.Idx → EReal) (ix2 u j) = (m ((c : Thread nD τ).loc main_arg4) : S4096.Idx → EReal) (ix1 j) := by
  have e : (V m c main_v2 : S1x4096.Idx → EReal)
      = shapeCast S1x4096 (m ((c : Thread nD τ).loc main_arg4) : S4096.Idx → EReal) shapeCasts_S4096_S1x4096 := by
    dsimp only [Gen.V, Gen.hostOps0]
    after_results
    rfl
  rw [e]
  exact shapeCast_a_1a_apply _ _ u j

/-- The cell's scale row at `(0, k)` is the scale at `k`. -/
theorem V_v3_apply (c : Dev nD) (u : Fin 1) (k : Fin 1024) :
    (V m c main_v3 : S1x1024.Idx → EReal) (ix2 u k) = (m ((c : Thread nD τ).loc main_arg8) : S1024.Idx → EReal) (ix1 k) := by
  have e : (V m c main_v3 : S1x1024.Idx → EReal)
      = shapeCast S1x1024 (m ((c : Thread nD τ).loc main_arg8) : S1024.Idx → EReal) shapeCasts_S1024_S1x1024 := by
    dsimp only [Gen.V, Gen.hostOps0]
    after_results
    rfl
  rw [e]
  exact shapeCast_a_1a_apply _ _ u k

/-- The cell's shift row at `(0, k)` is the shift at `k`. -/
theorem V_v4_apply (c : Dev nD) (u : Fin 1) (k : Fin 1024) :
    (V m c main_v4 : S1x1024.Idx → EReal) (ix2 u k) = (m ((c : Thread nD τ).loc main_arg9) : S1024.Idx → EReal) (ix1 k) := by
  have e : (V m c main_v4 : S1x1024.Idx → EReal)
      = shapeCast S1x1024 (m ((c : Thread nD τ).loc main_arg9) : S1024.Idx → EReal) shapeCasts_S1024_S1x1024 := by
    dsimp only [Gen.V, Gen.hostOps0]
    after_results
    rfl
  rw [e]
  exact shapeCast_a_1a_apply _ _ u k

/-! ## One block row against one array row -/

/-- When block row `p` of the staged inputs is row `r` of the arrays, entry `(p, q)` of the cell output block is entry
    `(r, q)` of the specification's cell array. -/
theorem cellBlock_eq_array (X H C : S4096x1024.Idx → EReal) (Wh : S1024x4096.Idx → EReal) (b : S4096.Idx → EReal)
    (Wx : S1024x4096.Idx → EReal) (lnG lnB : S4x1024.Idx → EReal)
    (x0 x1 x2 : Vec Ideal S128x1024 .f32) (x3 x4 : Vec Ideal S1024x4096 .bf16) (x5 : Vec Ideal S1x4096 .f32)
    (x6 x7 : Vec Ideal S4x1024 .f32) (x8 x9 : Vec Ideal S1x1024 .f32)
    (r : Fin 4096) (p : Fin 128) (q : Fin 1024)
    (h0 : ∀ k, x0 (ix2 p k) = X (ix2 r k)) (h1 : ∀ k, x1 (ix2 p k) = H (ix2 r k)) (h2 : ∀ k, x2 (ix2 p k) = C (ix2 r k))
    (h3 : ∀ k j, x3 (ix2 k j) = Wh (ix2 k j)) (h4 : ∀ k j, x4 (ix2 k j) = Wx (ix2 k j))
    (h5 : ∀ j, x5 (ix2 (0 : Fin 1) j) = b (ix1 j))
    (h6 : ∀ g k, x6 (ix2 g k) = lnG (ix2 g k)) (h7 : ∀ g k, x7 (ix2 g k) = lnB (ix2 g k)) :
    out0_11 (F := Ideal) x0 x1 x2 x3 x4 x5 x6 x7 x8 x9 (ix2 p q) = cellArray X H C Wh b Wx lnG lnB (ix2 r q) := by
  rw [Cert.BlockValue.cellBlock_apply x0 x1 x2 x3 x4 x5 x6 x7 x8 x9 p q]
  show cellNext (preRow (fun k => x1 (ix2 p k)) (fun k => x0 (ix2 p k)) (fun k j => x3 (ix2 k j)) (fun k j => x4 (ix2 k j))
        (fun j => x5 (ix2 (0 : Fin 1) j))) (fun g k => x6 (ix2 g k)) (fun g k => x7 (ix2 g k)) (fun k => x2 (ix2 p k)) q
      = cellNext (preRow (fun k => H (ix2 r k)) (fun k => X (ix2 r k)) (fun k j => Wh (ix2 k j)) (fun k j => Wx (ix2 k j))
        (fun j => b (ix1 j))) (fun g k => lnG (ix2 g k)) (fun g k => lnB (ix2 g k)) (fun k => C (ix2 r k)) q
  rw [funext h0, funext h1, funext h2, funext fun k => funext (h3 k), funext fun k => funext (h4 k), funext h5,
    funext fun g => funext (h6 g), funext fun g => funext (h7 g)]

/-- When block row `p` of the staged inputs is row `r` of the arrays, entry `(p, q)` of the hidden output block is entry
    `(r, q)` of the specification's hidden array. -/
theorem hiddenBlock_eq_array (X H C : S4096x1024.Idx → EReal) (Wh : S1024x4096.Idx → EReal) (b : S4096.Idx → EReal)
    (Wx : S1024x4096.Idx → EReal) (lnG lnB : S4x1024.Idx → EReal) (cG cB : S1024.Idx → EReal)
    (x0 x1 x2 : Vec Ideal S128x1024 .f32) (x3 x4 : Vec Ideal S1024x4096 .bf16) (x5 : Vec Ideal S1x4096 .f32)
    (x6 x7 : Vec Ideal S4x1024 .f32) (x8 x9 : Vec Ideal S1x1024 .f32)
    (r : Fin 4096) (p : Fin 128) (q : Fin 1024)
    (h0 : ∀ k, x0 (ix2 p k) = X (ix2 r k)) (h1 : ∀ k, x1 (ix2 p k) = H (ix2 r k)) (h2 : ∀ k, x2 (ix2 p k) = C (ix2 r k))
    (h3 : ∀ k j, x3 (ix2 k j) = Wh (ix2 k j)) (h4 : ∀ k j, x4 (ix2 k j) = Wx (ix2 k j))
    (h5 : ∀ j, x5 (ix2 (0 : Fin 1) j) = b (ix1 j))
    (h6 : ∀ g k, x6 (ix2 g k) = lnG (ix2 g k)) (h7 : ∀ g k, x7 (ix2 g k) = lnB (ix2 g k))
    (h8 : ∀ k, x8 (ix2 (0 : Fin 1) k) = cG (ix1 k)) (h9 : ∀ k, x9 (ix2 (0 : Fin 1) k) = cB (ix1 k)) :
    out0_10 (F := Ideal) x0 x1 x2 x3 x4 x5 x6 x7 x8 x9 (ix2 p q) = hiddenArray X H C Wh b Wx lnG lnB cG cB (ix2 r q) := by
  rw [Cert.BlockValue.hiddenBlock_apply x0 x1 x2 x3 x4 x5 x6 x7 x8 x9 p q]
  show hiddenNext (preRow (fun k => x1 (ix2 p k)) (fun k => x0 (ix2 p k)) (fun k j => x3 (ix2 k j)) (fun k j => x4 (ix2 k j))
        (fun j => x5 (ix2 (0 : Fin 1) j))) (fun g k => x6 (ix2 g k)) (fun g k => x7 (ix2 g k)) (fun k => x2 (ix2 p k))
        (fun k => x8 (ix2 (0 : Fin 1) k)) (fun k => x9 (ix2 (0 : Fin 1) k)) q
      = hiddenNext (preRow (fun k => H (ix2 r k)) (fun k => X (ix2 r k)) (fun k j => Wh (ix2 k j)) (fun k j => Wx (ix2 k j))
        (fun j => b (ix1 j))) (fun g k => lnG (ix2 g k)) (fun g k => lnB (ix2 g k)) (fun k => C (ix2 r k))
        (fun k => cG (ix1 k)) (fun k => cB (ix1 k)) q
  rw [funext h0, funext h1, funext h2, funext fun k => funext (h3 k), funext fun k => funext (h4 k), funext h5,
    funext fun g => funext (h6 g), funext fun g => funext (h7 g), funext h8, funext h9]

/-! ## What a point writes back, the cover, and the two result arrays -/

/-- What point `t` writes back to the hidden result is block `t` of the specification's hidden array of the arguments. -/
theorem hidden_flushed_eq (c : Dev nD) (t : Fin cfg0.N) :
    (dats m 0 c).flushed 10 t = ((cfg0.win 10).blk t).view.read (Elt Ideal) (hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Cert.KernelIdeal.ValueCut.flushed10]
  funext y
  obtain ⟨p, q, rfl⟩ : ∃ (p : Fin 128) (q : Fin 1024), y = ix2 p q := ⟨y 0, y 1, eq_ix2 y⟩
  have e0 : win0_10.index t (0 : Fin 2) = t.val := (index_facts t).2.2.2.2.2.2.2.2.2.2.1.1
  have e1 : win0_10.index t (1 : Fin 2) = 0 := (index_facts t).2.2.2.2.2.2.2.2.2.2.1.2
  have hemb : ((cfg0.win 10).blk t).view.emb (ix2 p q) = (ix2 ⟨128 * t.val + p.val, row_lt t p⟩ q : S4096x1024.Idx) := by
    funext d; apply Fin.ext
    match d with
    | ⟨0, _⟩ => show win0_10.index t (0 : Fin 2) * 128 + 1 * p.val = 128 * t.val + p.val; rw [e0]; omega
    | ⟨1, _⟩ => show win0_10.index t (1 : Fin 2) * 1024 + 1 * q.val = q.val; rw [e1]; omega
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p q)
    = hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb (ix2 p q))
  refine Eq.trans ?_ (congrArg (hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) hemb.symm)
  exact hiddenBlock_eq_array (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      (iblk m c 0 t) (iblk m c 1 t) (iblk m c 2 t) (iblk m c 3 t) (iblk m c 4 t) (iblk m c 5 t) (iblk m c 6 t) (iblk m c 7 t) (iblk m c 8 t) (iblk m c 9 t)
      ⟨128 * t.val + p.val, row_lt t p⟩ p q
      (fun k => iblk0_apply m c t p k)
      (fun k => iblk1_apply m c t p k)
      (fun k => iblk2_apply m c t p k)
      (fun k j => (iblk3_apply m c t k j).trans (congrFun (V_v0 m c) (ix2 k j)))
      (fun k j => (iblk4_apply m c t k j).trans (congrFun (V_v1 m c) (ix2 k j)))
      (fun j => (iblk5_apply m c t 0 j).trans (V_v2_apply m c 0 j))
      (fun g k => (iblk6_apply m c t g k).trans (congrFun (V_main_arg6 m c) (ix2 g k)))
      (fun g k => (iblk7_apply m c t g k).trans (congrFun (V_main_arg7 m c) (ix2 g k)))
      (fun k => (iblk8_apply m c t 0 k).trans (V_v3_apply m c 0 k))
      (fun k => (iblk9_apply m c t 0 k).trans (V_v4_apply m c 0 k))

/-- What point `t` writes back to the cell result is block `t` of the specification's cell array of the arguments. -/
theorem cell_flushed_eq (c : Dev nD) (t : Fin cfg0.N) :
    (dats m 0 c).flushed 11 t = ((cfg0.win 11).blk t).view.read (Elt Ideal) (cellArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.ValueCut.flushed11]
  funext y
  obtain ⟨p, q, rfl⟩ : ∃ (p : Fin 128) (q : Fin 1024), y = ix2 p q := ⟨y 0, y 1, eq_ix2 y⟩
  have e0 : win0_11.index t (0 : Fin 2) = t.val := (index_facts t).2.2.2.2.2.2.2.2.2.2.2.1
  have e1 : win0_11.index t (1 : Fin 2) = 0 := (index_facts t).2.2.2.2.2.2.2.2.2.2.2.2
  have hemb : ((cfg0.win 11).blk t).view.emb (ix2 p q) = (ix2 ⟨128 * t.val + p.val, row_lt t p⟩ q : S4096x1024.Idx) := by
    funext d; apply Fin.ext
    match d with
    | ⟨0, _⟩ => show win0_11.index t (0 : Fin 2) * 128 + 1 * p.val = 128 * t.val + p.val; rw [e0]; omega
    | ⟨1, _⟩ => show win0_11.index t (1 : Fin 2) * 1024 + 1 * q.val = q.val; rw [e1]; omega
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p q)
    = cellArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 11).blk t).view.emb (ix2 p q))
  refine Eq.trans ?_ (congrArg (cellArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) hemb.symm)
  exact cellBlock_eq_array (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      (iblk m c 0 t) (iblk m c 1 t) (iblk m c 2 t) (iblk m c 3 t) (iblk m c 4 t) (iblk m c 5 t) (iblk m c 6 t) (iblk m c 7 t) (iblk m c 8 t) (iblk m c 9 t)
      ⟨128 * t.val + p.val, row_lt t p⟩ p q
      (fun k => iblk0_apply m c t p k)
      (fun k => iblk1_apply m c t p k)
      (fun k => iblk2_apply m c t p k)
      (fun k j => (iblk3_apply m c t k j).trans (congrFun (V_v0 m c) (ix2 k j)))
      (fun k j => (iblk4_apply m c t k j).trans (congrFun (V_v1 m c) (ix2 k j)))
      (fun j => (iblk5_apply m c t 0 j).trans (V_v2_apply m c 0 j))
      (fun g k => (iblk6_apply m c t g k).trans (congrFun (V_main_arg6 m c) (ix2 g k)))
      (fun g k => (iblk7_apply m c t g k).trans (congrFun (V_main_arg7 m c) (ix2 g k)))

/-- An index of the hidden result is in point `t`'s block iff each coordinate is in the block's range on its axis. -/
theorem hidden_mem_blk (t : Fin cfg0.N) (i : S4096x1024.Idx) :
    i ∈ ((cfg0.win 10).blk t).view.set ↔ ∀ a : Fin 2, win0_10.index t a * S128x1024.size a ≤ (i a).val
      ∧ (i a).val < win0_10.index t a * S128x1024.size a + S128x1024.size a := by
  show i ∈ ((View.whole main_v5_0).slice (win0_10.rect t)).set ↔ _
  rw [View.set_slice_whole, Rect.mem_set_unit]
  exact Iff.rfl

/-- Row `r` of the hidden result is in the block of point `r / 128`. -/
theorem hidden_cover (i : S4096x1024.Idx) :
    ∃ t : Fin cfg0.N, (cfg0.win 10).flush t = true ∧ i ∈ ((cfg0.win 10).blk t).view.set := by
  have hi0 : (i 0).val < 4096 := (i 0).isLt
  have hi1 : (i 1).val < 1024 := (i 1).isLt
  obtain ⟨t, ht⟩ : ∃ t : Fin cfg0.N, t.val = (i 0).val / 128 :=
    ⟨⟨(i 0).val / 128, by show (i 0).val / 128 < 32; omega⟩, rfl⟩
  have e0 : win0_10.index t (0 : Fin 2) = t.val := (index_facts t).2.2.2.2.2.2.2.2.2.2.1.1
  have e1 : win0_10.index t (1 : Fin 2) = 0 := (index_facts t).2.2.2.2.2.2.2.2.2.2.1.2
  refine ⟨t, flush0_10 t, ?_⟩
  rw [hidden_mem_blk]
  intro a
  match a with
  | ⟨0, _⟩ =>
    show win0_10.index t (0 : Fin 2) * 128 ≤ (i 0).val ∧ (i 0).val < win0_10.index t (0 : Fin 2) * 128 + 128
    rw [e0]; omega
  | ⟨1, _⟩ =>
    show win0_10.index t (1 : Fin 2) * 1024 ≤ (i 1).val ∧ (i 1).val < win0_10.index t (1 : Fin 2) * 1024 + 1024
    rw [e1]; omega

/-- An index of the cell result is in point `t`'s block iff each coordinate is in the block's range on its axis. -/
theorem cell_mem_blk (t : Fin cfg0.N) (i : S4096x1024.Idx) :
    i ∈ ((cfg0.win 11).blk t).view.set ↔ ∀ a : Fin 2, win0_11.index t a * S128x1024.size a ≤ (i a).val
      ∧ (i a).val < win0_11.index t a * S128x1024.size a + S128x1024.size a := by
  show i ∈ ((View.whole main_v5_1).slice (win0_11.rect t)).set ↔ _
  rw [View.set_slice_whole, Rect.mem_set_unit]
  exact Iff.rfl

/-- Row `r` of the cell result is in the block of point `r / 128`. -/
theorem cell_cover (i : S4096x1024.Idx) :
    ∃ t : Fin cfg0.N, (cfg0.win 11).flush t = true ∧ i ∈ ((cfg0.win 11).blk t).view.set := by
  have hi0 : (i 0).val < 4096 := (i 0).isLt
  have hi1 : (i 1).val < 1024 := (i 1).isLt
  obtain ⟨t, ht⟩ : ∃ t : Fin cfg0.N, t.val = (i 0).val / 128 :=
    ⟨⟨(i 0).val / 128, by show (i 0).val / 128 < 32; omega⟩, rfl⟩
  have e0 : win0_11.index t (0 : Fin 2) = t.val := (index_facts t).2.2.2.2.2.2.2.2.2.2.2.1
  have e1 : win0_11.index t (1 : Fin 2) = 0 := (index_facts t).2.2.2.2.2.2.2.2.2.2.2.2
  refine ⟨t, flush0_11 t, ?_⟩
  rw [cell_mem_blk]
  intro a
  match a with
  | ⟨0, _⟩ =>
    show win0_11.index t (0 : Fin 2) * 128 ≤ (i 0).val ∧ (i 0).val < win0_11.index t (0 : Fin 2) * 128 + 128
    rw [e0]; omega
  | ⟨1, _⟩ =>
    show win0_11.index t (1 : Fin 2) * 1024 ≤ (i 1).val ∧ (i 1).val < win0_11.index t (1 : Fin 2) * 1024 + 1024
    rw [e1]; omega

/-- After the run the hidden result is the specification's hidden array of the arguments. -/
theorem hidden_final (c : Dev nD) :
    (dats m 0 c).arrAt 10 cfg0.N = hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 (hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (fun t _ => hidden_flushed_eq m c t) hidden_cover

/-- After the run the cell result is the specification's cell array of the arguments. -/
theorem cell_final (c : Dev nD) :
    (dats m 0 c).arrAt 11 cfg0.N = cellArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 11 (cellArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (fun t _ => cell_flushed_eq m c t) cell_cover

end Blocks

/-- Every weakly fair execution of the idealized kernel ends with the hidden result at `hiddenArray` and the cell
    result at `cellArray` of the argument arrays, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
      r.2.mem ((c.tc : Thread Cert.KernelIdeal.nD Cert.KernelIdeal.τ).loc Cert.KernelIdeal.main_v5_0)
          = hiddenArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_v5_1)
          = cellArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) := by
  exact (θ_run (Cert.KernelIdeal.defs (F := Ideal)) _ _).mono
    (fun r h c => ⟨(h c).1.trans (hidden_final m c), (h c).2.1.trans (cell_final m c), (h c).2.2⟩)
    (Cert.KernelIdeal.ValueCut.run_blocks m ρ)

end Cert.KernelRun

end
-- ==== Proof.RefRows.lean ====
/-
  The reference's layer normalisation, read at an entry.

  The reference normalises along the last axis of a whole array: a sum over that axis kept as a unit axis and divided by
  the row length (the means), the means broadcast back and subtracted (the deviations), the same on the squared
  deviations (the variances), the floor added, a reciprocal square root, that broadcast back and multiplied in, then a
  scale array and a shift array. On the [4096, 4, 1024] array of gates the row is `(r, g, ·)`; on the [4096, 1024] new
  cell array it is `(r, ·)`. At an entry every step reads that one row, so the chain is the row's layer normalisation.
-/
import Idealize.ShloMosaic.Lib.IdealHost
import Idealize.ShloMosaic.Lib.Pipeline.Value
import Idealize.ShloMosaic.PureOps.Ideal.Laws
import proofs.«119302_j47742856462402_1_alg».proof.Proof.Spec

noncomputable section

open scoped BigOperators

namespace Cert.RefRows

open Idealize.ShloMosaic Idealize.ShloMosaic.ValueIdx Cert.LstmSpec

section Rank3

variable (hT : (⟨3, ![4096, 4, 1024]⟩ : Shape).ReducesTo [2] ⟨2, ![4096, 4]⟩)
  (hu : 0 < (⟨0, ![]⟩ : Shape).numel)
  (hk : (⟨2, ![4096, 4]⟩ : Shape).BroadcastsInDim ⟨3, ![4096, 4, 1]⟩ (![0, 1] : Fin 2 → Fin 3))
  (hs : (⟨0, ![]⟩ : Shape).BroadcastsInDim ⟨3, ![4096, 4, 1]⟩ (![] : Fin 0 → Fin 3))
  (hc : (⟨3, ![4096, 4, 1]⟩ : Shape).BroadcastsInDim ⟨3, ![4096, 4, 1024]⟩ (![0, 1, 2] : Fin 3 → Fin 3))

/-- The sums over the last axis, kept as a unit axis, divided by the row length: one entry per batch row and gate. -/
def meanCol3 (X : FVec Ideal ⟨3, ![4096, 4, 1024]⟩ .f32) : FVec Ideal ⟨3, ![4096, 4, 1]⟩ .f32 :=
  Host.divf
    (broadcastInDim ⟨3, ![4096, 4, 1]⟩ ![0, 1] hk
      (Host.reduceAdd X (constant ⟨0, ![]⟩ .f32 0x00000000#32) hT hu))
    (broadcastInDim ⟨3, ![4096, 4, 1]⟩ ![] hs (constant ⟨0, ![]⟩ .f32 0x44800000#32))

theorem lift3 (hR : (⟨3, ![4096, 4, 1024]⟩ : Shape).Reduces [2] ⟨2, ![4096, 4]⟩) (r : Fin 4096) (g : Fin 4) (k : Fin 1024) : hR.lift (ix2 r g) k = ix3 r g k := by
  funext a
  apply Fin.ext
  match a with
  | ⟨0, _⟩ => rfl
  | ⟨1, _⟩ => rfl
  | ⟨2, _⟩ => rfl

theorem meanCol3_apply (hR : (⟨3, ![4096, 4, 1024]⟩ : Shape).Reduces [2] ⟨2, ![4096, 4]⟩)
    (X : FVec Ideal ⟨3, ![4096, 4, 1024]⟩ .f32) (r : Fin 4096) (g : Fin 4) (u : Fin 1) :
    meanCol3 hT hu hk hs X (ix3 r g u) = rowMean (fun k => X (ix3 r g k)) := by
  unfold meanCol3
  rw [hostDivf_apply, broadcastInDim_scalar_apply,
    broadcastInDim_apply (![0, 1] : Fin 2 → Fin 3) hk _ (ix3 r g u) (ix2 r g)
      (fun a => by match a with | ⟨0, _⟩ => rfl | ⟨1, _⟩ => rfl),
    hostReduceAdd_apply, Ideal.hostReduceAdd_single hT hR]
  show Ideal.div (Ideal.ofBits .f32 0x00000000#32 + _) _ = _
  rw [Ideal.ofBits_zero_f32, zero_add]
  unfold rowMean
  congr 1
  exact Finset.sum_congr rfl fun k _ => congrArg X (lift3 hR r g k)

/-- The array minus its means broadcast back along the last axis. -/
def devs3 (X : FVec Ideal ⟨3, ![4096, 4, 1024]⟩ .f32) : FVec Ideal ⟨3, ![4096, 4, 1024]⟩ .f32 :=
  subf X (broadcastInDim ⟨3, ![4096, 4, 1024]⟩ ![0, 1, 2] hc (meanCol3 hT hu hk hs X))

theorem bcast3_apply {α : Type} (v : (⟨3, ![4096, 4, 1]⟩ : Shape).Idx → α) (r : Fin 4096) (g : Fin 4) (q : Fin 1024) :
    broadcastInDim ⟨3, ![4096, 4, 1024]⟩ ![0, 1, 2] hc v (ix3 r g q) = v (ix3 r g (0 : Fin 1)) :=
  broadcastInDim_apply (![0, 1, 2] : Fin 3 → Fin 3) hc v (ix3 r g q) (ix3 r g (0 : Fin 1))
    (fun a => by match a with | ⟨0, _⟩ => rfl | ⟨1, _⟩ => rfl | ⟨2, _⟩ => rfl)

theorem devs3_apply (hR : (⟨3, ![4096, 4, 1024]⟩ : Shape).Reduces [2] ⟨2, ![4096, 4]⟩)
    (X : FVec Ideal ⟨3, ![4096, 4, 1024]⟩ .f32) (r : Fin 4096) (g : Fin 4) (q : Fin 1024) :
    devs3 hT hu hk hs hc X (ix3 r g q) = X (ix3 r g q) - rowMean (fun k => X (ix3 r g k)) := by
  unfold devs3
  rw [subf_apply, bcast3_apply, meanCol3_apply hT hu hk hs hR]

/-- The reciprocal square root of each variance plus the floor, kept with a unit last axis. -/
def scaleCol3 (X : FVec Ideal ⟨3, ![4096, 4, 1024]⟩ .f32) : FVec Ideal ⟨3, ![4096, 4, 1]⟩ .f32 :=
  Host.rsqrt (addf (meanCol3 hT hu hk hs (mulf (devs3 hT hu hk hs hc X) (devs3 hT hu hk hs hc X)))
    (broadcastInDim ⟨3, ![4096, 4, 1]⟩ ![] hs (constant ⟨0, ![]⟩ .f32 0x3727C5AC#32)))

theorem scaleCol3_apply (hR : (⟨3, ![4096, 4, 1024]⟩ : Shape).Reduces [2] ⟨2, ![4096, 4]⟩)
    (X : FVec Ideal ⟨3, ![4096, 4, 1024]⟩ .f32) (r : Fin 4096) (g : Fin 4) (u : Fin 1) :
    scaleCol3 hT hu hk hs hc X (ix3 r g u)
      = Ideal.rsqrt (rowVar (fun k => X (ix3 r g k)) + varFloor) := by
  unfold scaleCol3
  show Ideal.rsqrt (meanCol3 hT hu hk hs _ (ix3 r g u) + broadcastInDim _ _ hs _ (ix3 r g u)) = _
  rw [meanCol3_apply hT hu hk hs hR, broadcastInDim_scalar_apply]
  have hrow : (fun k => mulf (devs3 hT hu hk hs hc X) (devs3 hT hu hk hs hc X) (ix3 r g k))
      = fun k => (X (ix3 r g k) - rowMean (fun k => X (ix3 r g k))) * (X (ix3 r g k) - rowMean (fun k => X (ix3 r g k))) := by
    funext k
    rw [mulf_apply, devs3_apply hT hu hk hs hc hR]
  rw [hrow]
  rfl

/-- The whole chain: deviations times the scale, times a scale array, plus a shift array. -/
def norm3 (X Γ B : FVec Ideal ⟨3, ![4096, 4, 1024]⟩ .f32) : FVec Ideal ⟨3, ![4096, 4, 1024]⟩ .f32 :=
  addf (mulf (mulf (devs3 hT hu hk hs hc X)
      (broadcastInDim ⟨3, ![4096, 4, 1024]⟩ ![0, 1, 2] hc (scaleCol3 hT hu hk hs hc X))) Γ) B

/-- At entry `(r, g, q)` the chain is the layer normalisation of the row `(r, g, ·)` at column `q`. -/
theorem norm3_apply (hR : (⟨3, ![4096, 4, 1024]⟩ : Shape).Reduces [2] ⟨2, ![4096, 4]⟩)
    (X Γ B : FVec Ideal ⟨3, ![4096, 4, 1024]⟩ .f32) (r : Fin 4096) (g : Fin 4) (q : Fin 1024) :
    norm3 hT hu hk hs hc X Γ B (ix3 r g q)
      = layerNorm (fun k => X (ix3 r g k)) (fun k => Γ (ix3 r g k)) (fun k => B (ix3 r g k)) q := by
  unfold norm3
  rw [addf_apply, mulf_apply, mulf_apply, devs3_apply hT hu hk hs hc hR, bcast3_apply, scaleCol3_apply hT hu hk hs hc hR]
  rfl

end Rank3

section Rank2

variable (hT : (⟨2, ![4096, 1024]⟩ : Shape).ReducesTo [1] ⟨1, ![4096]⟩)
  (hu : 0 < (⟨0, ![]⟩ : Shape).numel)
  (hk : (⟨1, ![4096]⟩ : Shape).BroadcastsInDim ⟨2, ![4096, 1]⟩ (![0] : Fin 1 → Fin 2))
  (hs : (⟨0, ![]⟩ : Shape).BroadcastsInDim ⟨2, ![4096, 1]⟩ (![] : Fin 0 → Fin 2))
  (hc : (⟨2, ![4096, 1]⟩ : Shape).BroadcastsInDim ⟨2, ![4096, 1024]⟩ (![0, 1] : Fin 2 → Fin 2))

/-- The row sums, kept as a column, divided by the row length: one entry per batch row. -/
def meanCol2 (X : FVec Ideal ⟨2, ![4096, 1024]⟩ .f32) : FVec Ideal ⟨2, ![4096, 1]⟩ .f32 :=
  Host.divf
    (broadcastInDim ⟨2, ![4096, 1]⟩ ![0] hk (Host.reduceAdd X (constant ⟨0, ![]⟩ .f32 0x00000000#32) hT hu))
    (broadcastInDim ⟨2, ![4096, 1]⟩ ![] hs (constant ⟨0, ![]⟩ .f32 0x44800000#32))

theorem lift2 (hR : (⟨2, ![4096, 1024]⟩ : Shape).Reduces [1] ⟨1, ![4096]⟩) (r : Fin 4096) (k : Fin 1024) :
    hR.lift (ix1 r) k = ix2 r k := by
  funext a
  apply Fin.ext
  match a with
  | ⟨0, _⟩ => rfl
  | ⟨1, _⟩ => rfl

theorem meanCol2_apply (hR : (⟨2, ![4096, 1024]⟩ : Shape).Reduces [1] ⟨1, ![4096]⟩)
    (X : FVec Ideal ⟨2, ![4096, 1024]⟩ .f32) (r : Fin 4096) (u : Fin 1) :
    meanCol2 hT hu hk hs X (ix2 r u) = rowMean (fun k => X (ix2 r k)) := by
  unfold meanCol2
  rw [hostDivf_apply, broadcastInDim_scalar_apply,
    broadcastInDim_apply (![0] : Fin 1 → Fin 2) hk _ (ix2 r u) (ix1 r)
      (fun a => by match a with | ⟨0, _⟩ => rfl),
    hostReduceAdd_apply, Ideal.hostReduceAdd_single hT hR]
  show Ideal.div (Ideal.ofBits .f32 0x00000000#32 + _) _ = _
  rw [Ideal.ofBits_zero_f32, zero_add]
  unfold rowMean
  congr 1
  exact Finset.sum_congr rfl fun k _ => congrArg X (lift2 hR r k)

/-- The array minus its row means broadcast back over the columns. -/
def devs2 (X : FVec Ideal ⟨2, ![4096, 1024]⟩ .f32) : FVec Ideal ⟨2, ![4096, 1024]⟩ .f32 :=
  subf X (broadcastInDim ⟨2, ![4096, 1024]⟩ ![0, 1] hc (meanCol2 hT hu hk hs X))

theorem bcast2_apply {α : Type} (v : (⟨2, ![4096, 1]⟩ : Shape).Idx → α) (r : Fin 4096) (q : Fin 1024) :
    broadcastInDim ⟨2, ![4096, 1024]⟩ ![0, 1] hc v (ix2 r q) = v (ix2 r (0 : Fin 1)) :=
  broadcastInDim_apply (![0, 1] : Fin 2 → Fin 2) hc v (ix2 r q) (ix2 r (0 : Fin 1))
    (fun a => by match a with | ⟨0, _⟩ => rfl | ⟨1, _⟩ => rfl)

theorem devs2_apply (hR : (⟨2, ![4096, 1024]⟩ : Shape).Reduces [1] ⟨1, ![4096]⟩)
    (X : FVec Ideal ⟨2, ![4096, 1024]⟩ .f32) (r : Fin 4096) (q : Fin 1024) :
    devs2 hT hu hk hs hc X (ix2 r q) = X (ix2 r q) - rowMean (fun k => X (ix2 r k)) := by
  unfold devs2
  rw [subf_apply, bcast2_apply, meanCol2_apply hT hu hk hs hR]

/-- The reciprocal square root of each row's variance plus the floor, as a column. -/
def scaleCol2 (X : FVec Ideal ⟨2, ![4096, 1024]⟩ .f32) : FVec Ideal ⟨2, ![4096, 1]⟩ .f32 :=
  Host.rsqrt (addf (meanCol2 hT hu hk hs (mulf (devs2 hT hu hk hs hc X) (devs2 hT hu hk hs hc X)))
    (broadcastInDim ⟨2, ![4096, 1]⟩ ![] hs (constant ⟨0, ![]⟩ .f32 0x3727C5AC#32)))

theorem scaleCol2_apply (hR : (⟨2, ![4096, 1024]⟩ : Shape).Reduces [1] ⟨1, ![4096]⟩)
    (X : FVec Ideal ⟨2, ![4096, 1024]⟩ .f32) (r : Fin 4096) (u : Fin 1) :
    scaleCol2 hT hu hk hs hc X (ix2 r u) = Ideal.rsqrt (rowVar (fun k => X (ix2 r k)) + varFloor) := by
  unfold scaleCol2
  show Ideal.rsqrt (meanCol2 hT hu hk hs _ (ix2 r u) + broadcastInDim _ _ hs _ (ix2 r u)) = _
  rw [meanCol2_apply hT hu hk hs hR, broadcastInDim_scalar_apply]
  have hrow : (fun k => mulf (devs2 hT hu hk hs hc X) (devs2 hT hu hk hs hc X) (ix2 r k))
      = fun k => (X (ix2 r k) - rowMean (fun k => X (ix2 r k))) * (X (ix2 r k) - rowMean (fun k => X (ix2 r k))) := by
    funext k
    rw [mulf_apply, devs2_apply hT hu hk hs hc hR]
  rw [hrow]
  rfl

/-- The whole chain on a [4096, 1024] array. -/
def norm2 (X Γ B : FVec Ideal ⟨2, ![4096, 1024]⟩ .f32) : FVec Ideal ⟨2, ![4096, 1024]⟩ .f32 :=
  addf (mulf (mulf (devs2 hT hu hk hs hc X)
      (broadcastInDim ⟨2, ![4096, 1024]⟩ ![0, 1] hc (scaleCol2 hT hu hk hs hc X))) Γ) B

/-- At entry `(r, q)` the chain is the layer normalisation of row `r` at column `q`. -/
theorem norm2_apply (hR : (⟨2, ![4096, 1024]⟩ : Shape).Reduces [1] ⟨1, ![4096]⟩)
    (X Γ B : FVec Ideal ⟨2, ![4096, 1024]⟩ .f32) (r : Fin 4096) (q : Fin 1024) :
    norm2 hT hu hk hs hc X Γ B (ix2 r q)
      = layerNorm (fun k => X (ix2 r k)) (fun k => Γ (ix2 r k)) (fun k => B (ix2 r k)) q := by
  unfold norm2
  rw [addf_apply, mulf_apply, mulf_apply, devs2_apply hT hu hk hs hc hR, bcast2_apply, scaleCol2_apply hT hu hk hs hc hR]
  rfl

end Rank2

end Cert.RefRows

end
-- ==== Proof.RefRun.lean ====
/-
  The reference program's two results as the specification's arrays.

  The reference computes all 4096 batch rows at once: two matrix products and the bias give the [4096, 4096]
  pre-activations, reshaped to [4096, 4, 1024] so that one layer normalisation along the last axis normalises the four
  gates of every row; the gates are sliced out along the middle axis, combined with the old cell array into the new cell
  array, which is layer-normalised along its rows for the new hidden array. Entry by entry these are the
  specification's row functions of the argument arrays.
-/
import proofs.«119302_j47742856462402_1_alg».proof.Proof.Gen.ReferenceIdeal.Run
import proofs.«119302_j47742856462402_1_alg».proof.Proof.Spec
import proofs.«119302_j47742856462402_1_alg».proof.Proof.LibDot
import proofs.«119302_j47742856462402_1_alg».proof.Proof.RefRows
import Idealize.ShloMosaic.Lib.IdealHost
import Idealize.ShloMosaic.Lib.ValueLayout
import Idealize.ShloMosaic.Lib.KernelVsHost
import Idealize.ShloMosaic.Lib.Pipeline.Value

noncomputable section

namespace Cert.RefRun

open Idealize.ShloMosaic Idealize.ShloMosaic.TcCoe Idealize.SL.Sem Idealize.ShloMosaic.ValueIdx Cert.LstmSpec

section Layout
variable {α : Type}

/-- A vector of `n` entries laid as one row and that row laid down `m` rows reads, at `(r, j)`, the vector at `j`. -/
theorem bcast_vec_rows_apply {m n : ℕ} (b : (⟨1, ![n]⟩ : Shape).Idx → α)
    (h1 : (⟨1, ![n]⟩ : Shape).BroadcastsInDim ⟨2, ![1, n]⟩ (![1] : Fin 1 → Fin (⟨2, ![1, n]⟩ : Shape).rank))
    (h2 : (⟨2, ![1, n]⟩ : Shape).BroadcastsInDim ⟨2, ![m, n]⟩ (![0, 1] : Fin 2 → Fin (⟨2, ![m, n]⟩ : Shape).rank)) (r : Fin m) (j : Fin n) :
    broadcastInDim ⟨2, ![m, n]⟩ ![0, 1] h2 (broadcastInDim ⟨2, ![1, n]⟩ ![1] h1 b) (ix2 r j) = b (ix1 j) := by
  refine (broadcastInDim_oneRow_apply h2 _ r j).trans ?_
  refine broadcastInDim_apply ![1] h1 b (ix2 (0 : Fin 1) j) (ix1 j) fun a => ?_
  match a with
  | ⟨0, _⟩ =>
    show j.val = if n = 1 then 0 else j.val
    split
    · have := j.isLt; omega
    · rfl

/-- A `[g, n]` table laid as one slab and that slab laid down `m` slabs reads, at `(r, i, j)`, the table at `(i, j)`. -/
theorem bcast_tab_slabs_apply {m g n : ℕ} (b : (⟨2, ![g, n]⟩ : Shape).Idx → α)
    (h1 : (⟨2, ![g, n]⟩ : Shape).BroadcastsInDim ⟨3, ![1, g, n]⟩ (![1, 2] : Fin 2 → Fin (⟨3, ![1, g, n]⟩ : Shape).rank))
    (h2 : (⟨3, ![1, g, n]⟩ : Shape).BroadcastsInDim ⟨3, ![m, g, n]⟩ (![0, 1, 2] : Fin 3 → Fin (⟨3, ![m, g, n]⟩ : Shape).rank))
    (r : Fin m) (i : Fin g) (j : Fin n) :
    broadcastInDim ⟨3, ![m, g, n]⟩ ![0, 1, 2] h2 (broadcastInDim ⟨3, ![1, g, n]⟩ ![1, 2] h1 b) (ix3 r i j) = b (ix2 i j) := by
  refine (broadcastInDim_apply ![0, 1, 2] h2 _ (ix3 r i j) (ix3 (0 : Fin 1) i j) fun a => ?_).trans ?_
  · match a with
    | ⟨0, _⟩ => rfl
    | ⟨1, _⟩ =>
      show i.val = if g = 1 then 0 else i.val
      split
      · have := i.isLt; omega
      · rfl
    | ⟨2, _⟩ =>
      show j.val = if n = 1 then 0 else j.val
      split
      · have := j.isLt; omega
      · rfl
  · refine broadcastInDim_apply ![1, 2] h1 b (ix3 (0 : Fin 1) i j) (ix2 i j) fun a => ?_
    match a with
    | ⟨0, _⟩ =>
      show i.val = if g = 1 then 0 else i.val
      split
      · have := i.isLt; omega
      · rfl
    | ⟨1, _⟩ =>
      show j.val = if n = 1 then 0 else j.val
      split
      · have := j.isLt; omega
      · rfl

/-- The `[4096, 4096]` pre-activations cut into four gates of 1024 columns: entry `(r, g, q)` of the `[4096, 4, 1024]`
    array is entry `(r, 1024 g + q)` of the matrix, the two having the same row-major position. -/
theorem reshape_gates_apply (x : (⟨2, ![4096, 4096]⟩ : Shape).Idx → α)
    (h : (⟨2, ![4096, 4096]⟩ : Shape).ShapeCasts ⟨3, ![4096, 4, 1024]⟩) (r : Fin 4096) (g : Fin 4) (q : Fin 1024) :
    shapeCast ⟨3, ![4096, 4, 1024]⟩ x h (ix3 r g q) = x (ix2 r (gateCol g q)) :=
  shapeCast_apply x h _ _ (by
    rw [Shape.rowMajor_val_two, Shape.rowMajor_val_three]
    show r.val * 4096 + (g.val * 1024 + q.val) = (r.val * 4 + g.val) * 1024 + q.val
    omega)

/-- Gate `G` sliced out of the `[m, g, n]` array along the middle axis and the unit axis dropped: entry `(r, q)` is
    entry `(r, G, q)`. -/
theorem slice_gate_apply {m g n : ℕ} (G : ℕ) (x : (⟨3, ![m, g, n]⟩ : Shape).Idx → α)
    (hs : (⟨3, ![m, g, n]⟩ : Shape).Slices ![0, G, 0] ⟨3, ![m, 1, n]⟩)
    (hc : (⟨3, ![m, 1, n]⟩ : Shape).ShapeCasts ⟨2, ![m, n]⟩) (k : Fin g) (hk : k.val = G) (r : Fin m) (q : Fin n) :
    shapeCast ⟨2, ![m, n]⟩ (extractStridedSlice ⟨3, ![m, 1, n]⟩ ![0, G, 0] x hs) hc (ix2 r q) = x (ix3 r k q) := by
  refine (shapeCast_apply _ hc (ix2 r q) (ix3 r (0 : Fin 1) q) (by
    rw [Shape.rowMajor_val_three, Shape.rowMajor_val_two]
    show (r.val * 1 + 0) * n + q.val = r.val * n + q.val
    rw [Nat.mul_one, Nat.add_zero])).trans ?_
  exact slice3_axis1_apply G x hs r (0 : Fin 1) q k (by rw [hk]; rfl)

end Layout

section Pointwise

/-- The logistic as the reference spells it, one over one plus the exponential of the negated operand, with the f32
    word of one broadcast from a scalar: at every index the logistic of the operand's entry. -/
theorem logistic_spelled_apply {s : Shape} (v : FVec Ideal s .f32)
    (hs : (⟨0, ![]⟩ : Shape).BroadcastsInDim s (![] : Fin 0 → Fin s.rank)) (i : s.Idx) :
    Host.divf (broadcastInDim s ![] hs (constant (F := Ideal) ⟨0, ![]⟩ .f32 0x3F800000#32))
        (addf (broadcastInDim s ![] hs (constant (F := Ideal) ⟨0, ![]⟩ .f32 0x3F800000#32)) (Host.exp (Host.negf v))) i
      = Ideal.logistic (v i) := by
  show Ideal.div (broadcastInDim s ![] hs (constant (F := Ideal) ⟨0, ![]⟩ .f32 0x3F800000#32) i)
      (broadcastInDim s ![] hs (constant (F := Ideal) ⟨0, ![]⟩ .f32 0x3F800000#32) i + Ideal.exp (-(v i))) = _
  rw [broadcastInDim_scalar_apply, constant_apply, Ideal.ofBits_one_f32]
  rfl

/-- Layer normalisation depends on its row, scale and shift only through their entries. -/
theorem layerNorm_congr {z z' γ γ' β β' : Fin 1024 → EReal} (hz : ∀ k, z k = z' k) (hγ : ∀ k, γ k = γ' k)
    (hβ : ∀ k, β k = β' k) (q : Fin 1024) : layerNorm z γ β q = layerNorm z' γ' β' q := by
  rw [funext hz, funext hγ, funext hβ]

end Pointwise

section Terms

open Cert.ReferenceIdeal Cert.ReferenceIdeal.Value Cert.ReferenceIdeal.Gen

variable (V0 : Valuation τ sig (Elt Ideal))

/-- The reshaped pre-activations at `(r, g, q)`: column `1024 g + q` of batch row `r`'s pre-activation row. The two
    matrix products are read as sums over the 1024 contracted coordinates, the bias's two broadcasts read the bias at
    the column, and adding the bias before the second product is adding it after. -/
theorem preact_apply (r : Fin 4096) (g : Fin 4) (q : Fin 1024) :
    res_main_v6 V0 (ix3 r g q)
      = preOf (V0 (Proc.devRef .tc main_arg0)) (V0 (Proc.devRef .tc main_arg1)) (V0 (Proc.devRef .tc main_arg3))
          (V0 (Proc.devRef .tc main_arg5)) (V0 (Proc.devRef .tc main_arg4)) r (gateCol g q) := by
  unfold res_main_v6
  refine (reshape_gates_apply _ _ r g q).trans ?_
  rw [addf_apply, addf_apply, Cert.LibDot.dotGeneral_apply _ rfl rfl rfl rfl rfl rfl,
    Cert.LibDot.dotGeneral_apply _ rfl rfl rfl rfl rfl rfl, bcast_vec_rows_apply]
  exact preRow_bias_first (fun k => V0 (Proc.devRef .tc main_arg1) (ix2 r k)) (fun k => V0 (Proc.devRef .tc main_arg0) (ix2 r k))
    (fun k j => V0 (Proc.devRef .tc main_arg3) (ix2 k j)) (fun k j => V0 (Proc.devRef .tc main_arg5) (ix2 k j))
    (fun j => V0 (Proc.devRef .tc main_arg4) (ix1 j)) (gateCol g q)

/-- The four layer-normalised gates at `(r, g, q)`: gate `g` of batch row `r`'s pre-activations, layer-normalised with row
    `g` of the scale and shift tables, at column `q`. The reference's chain is the row's layer normalisation; its row is
    the gate, and the twice-broadcast tables read their row `g`. -/
theorem gates_apply (r : Fin 4096) (g : Fin 4) (q : Fin 1024) :
    res_main_v30 V0 (ix3 r g q)
      = layerNorm (gate (preOf (V0 (Proc.devRef .tc main_arg0)) (V0 (Proc.devRef .tc main_arg1)) (V0 (Proc.devRef .tc main_arg3))
            (V0 (Proc.devRef .tc main_arg5)) (V0 (Proc.devRef .tc main_arg4)) r) g)
          (fun k => V0 (Proc.devRef .tc main_arg6) (ix2 g k)) (fun k => V0 (Proc.devRef .tc main_arg7) (ix2 g k)) q := by
  unfold res_main_v30 res_main_v12 res_main_v10
  refine (Cert.RefRows.norm3_apply _ _ _ _ _ (by decide) (res_main_v6 V0) _ _ r g q).trans ?_
  exact layerNorm_congr (fun k => preact_apply V0 r g k) (fun k => bcast_tab_slabs_apply _ _ _ r g k)
    (fun k => bcast_tab_slabs_apply _ _ _ r g k) q

/-- Gate `G` of the normalised gates as a `[4096, 1024]` array: the slice along the middle axis with its unit axis
    dropped. -/
def gateArr (G : ℕ) (hs : S4096x4x1024.Slices ![0, G, 0] S4096x1x1024) : FVec Ideal S4096x1024 .f32 :=
  shapeCast S4096x1024 (extractStridedSlice S4096x1x1024 ![0, G, 0] (res_main_v30 V0) hs) shapeCasts_S4096x1x1024_S4096x1024

/-- Gate `G` at `(r, q)`: gate `G` of batch row `r`'s pre-activations, layer-normalised, at column `q`. -/
theorem gateArr_apply (G : ℕ) (hs : S4096x4x1024.Slices ![0, G, 0] S4096x1x1024) (k : Fin 4) (hk : k.val = G)
    (r : Fin 4096) (q : Fin 1024) :
    gateArr V0 G hs (ix2 r q)
      = layerNorm (gate (preOf (V0 (Proc.devRef .tc main_arg0)) (V0 (Proc.devRef .tc main_arg1)) (V0 (Proc.devRef .tc main_arg3))
            (V0 (Proc.devRef .tc main_arg5)) (V0 (Proc.devRef .tc main_arg4)) r) k)
          (fun j => V0 (Proc.devRef .tc main_arg6) (ix2 k j)) (fun j => V0 (Proc.devRef .tc main_arg7) (ix2 k j)) q :=
  (slice_gate_apply G _ hs _ k hk r q).trans (gates_apply V0 r k q)

/-- The new cell array at `(r, q)`: the specification's new cell row of batch row `r` at column `q`. Gates 1, 0 and 2 are
    sliced out of the normalised gates; the forget and input gates go through the spelled logistic, the candidate
    through `tanh`. -/
theorem cell_apply (r : Fin 4096) (q : Fin 1024) :
    res_main_v54 V0 (ix2 r q)
      = cellNext (preOf (V0 (Proc.devRef .tc main_arg0)) (V0 (Proc.devRef .tc main_arg1)) (V0 (Proc.devRef .tc main_arg3))
            (V0 (Proc.devRef .tc main_arg5)) (V0 (Proc.devRef .tc main_arg4)) r)
          (fun g k => V0 (Proc.devRef .tc main_arg6) (ix2 g k)) (fun g k => V0 (Proc.devRef .tc main_arg7) (ix2 g k))
          (fun k => V0 (Proc.devRef .tc main_arg2) (ix2 r k)) q := by
  unfold res_main_v54
  show (Host.divf _ (addf _ (Host.exp (Host.negf (gateArr V0 1 slices_S4096x4x1024_S4096x1x1024_0_1_0)))) :
          FVec Ideal S4096x1024 .f32) (ix2 r q) * V0 (Proc.devRef .tc main_arg2) (ix2 r q)
      + (Host.divf _ (addf _ (Host.exp (Host.negf (gateArr V0 0 slices_S4096x4x1024_S4096x1x1024_0_0_0)))) :
          FVec Ideal S4096x1024 .f32) (ix2 r q)
        * Ideal.tanh (gateArr V0 2 slices_S4096x4x1024_S4096x1x1024_0_2_0 (ix2 r q)) = _
  rw [logistic_spelled_apply, logistic_spelled_apply, gateArr_apply V0 1 _ (1 : Fin 4) rfl,
    gateArr_apply V0 0 _ (0 : Fin 4) rfl, gateArr_apply V0 2 _ (2 : Fin 4) rfl]
  rfl

end Terms

section Hidden

open Cert.ReferenceIdeal Cert.ReferenceIdeal.Value Cert.ReferenceIdeal.Gen

variable (V0 : Valuation τ sig (Elt Ideal))

/-- The new cell array layer-normalised along its rows with the cell's scale and shift, at `(r, q)`: the layer
    normalisation of batch row `r`'s new cell row. -/
theorem cellNorm_apply (r : Fin 4096) (q : Fin 1024) :
    Cert.RefRows.norm2 reducesTo_S4096x1024_S4096_d1 h_S_ bcast_S4096_S4096x1_0 bcast_S_S4096x1 bcast_S4096x1_S4096x1024_0_1
        (res_main_v54 V0)
        (broadcastInDim S4096x1024 ![0, 1] bcast_S1x1024_S4096x1024_0_1 (broadcastInDim S1x1024 ![1] bcast_S1024_S1x1024_1 (V0 (Proc.devRef .tc main_arg8))))
        (broadcastInDim S4096x1024 ![0, 1] bcast_S1x1024_S4096x1024_0_1 (broadcastInDim S1x1024 ![1] bcast_S1024_S1x1024_1 (V0 (Proc.devRef .tc main_arg9))))
        (ix2 r q)
      = layerNorm (cellNext (preOf (V0 (Proc.devRef .tc main_arg0)) (V0 (Proc.devRef .tc main_arg1)) (V0 (Proc.devRef .tc main_arg3))
            (V0 (Proc.devRef .tc main_arg5)) (V0 (Proc.devRef .tc main_arg4)) r)
            (fun g k => V0 (Proc.devRef .tc main_arg6) (ix2 g k)) (fun g k => V0 (Proc.devRef .tc main_arg7) (ix2 g k))
            (fun k => V0 (Proc.devRef .tc main_arg2) (ix2 r k)))
          (fun k => V0 (Proc.devRef .tc main_arg8) (ix1 k)) (fun k => V0 (Proc.devRef .tc main_arg9) (ix1 k)) q :=
  (Cert.RefRows.norm2_apply _ _ _ _ _ (by decide) _ _ _ r q).trans
    (layerNorm_congr (fun k => cell_apply V0 r k) (fun k => bcast_vec_rows_apply _ _ _ r k)
      (fun k => bcast_vec_rows_apply _ _ _ r k) q)

/-- The new hidden array at `(r, q)`: the specification's new hidden row of batch row `r` at column `q`. -/
theorem hidden_apply (r : Fin 4096) (q : Fin 1024) :
    (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (shapeCast _ (extractStridedSlice S4096x1x1024 ![0, 3, 0] (res_main_v30 V0) slices_S4096x4x1024_S4096x1x1024_0_3_0) shapeCasts_S4096x1x1024_S4096x1024))))) (Host.tanh (addf (mulf (mulf (subf (res_main_v54 V0) (broadcastInDim S4096x1024 ![0, 1] bcast_S4096x1_S4096x1024_0_1 (res_main_v64 V0))) (broadcastInDim S4096x1024 ![0, 1] bcast_S4096x1_S4096x1024_0_1 (Host.rsqrt (addf (Host.divf (broadcastInDim S4096x1 ![0] bcast_S4096_S4096x1_0 (Host.reduceAdd (mulf (res_main_v66 V0) (res_main_v66 V0)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 (V0 (Proc.devRef .tc main_arg8))))) (broadcastInDim S4096x1024 ![0, 1] bcast_S1x1024_S4096x1024_0_1 (broadcastInDim S1x1024 ![1] bcast_S1024_S1x1024_1 (V0 (Proc.devRef .tc main_arg9))))))) (ix2 r q)
      = hiddenNext (preOf (V0 (Proc.devRef .tc main_arg0)) (V0 (Proc.devRef .tc main_arg1)) (V0 (Proc.devRef .tc main_arg3))
            (V0 (Proc.devRef .tc main_arg5)) (V0 (Proc.devRef .tc main_arg4)) r)
          (fun g k => V0 (Proc.devRef .tc main_arg6) (ix2 g k)) (fun g k => V0 (Proc.devRef .tc main_arg7) (ix2 g k))
          (fun k => V0 (Proc.devRef .tc main_arg2) (ix2 r k)) (fun k => V0 (Proc.devRef .tc main_arg8) (ix1 k))
          (fun k => V0 (Proc.devRef .tc main_arg9) (ix1 k)) q := by
  show (Host.divf _ (addf _ (Host.exp (Host.negf (gateArr V0 3 slices_S4096x4x1024_S4096x1x1024_0_3_0)))) :
        FVec Ideal S4096x1024 .f32) (ix2 r q)
      * Ideal.tanh (Cert.RefRows.norm2 reducesTo_S4096x1024_S4096_d1 h_S_ bcast_S4096_S4096x1_0 bcast_S_S4096x1
          bcast_S4096x1_S4096x1024_0_1 (res_main_v54 V0)
          (broadcastInDim S4096x1024 ![0, 1] bcast_S1x1024_S4096x1024_0_1 (broadcastInDim S1x1024 ![1] bcast_S1024_S1x1024_1 (V0 (Proc.devRef .tc main_arg8))))
          (broadcastInDim S4096x1024 ![0, 1] bcast_S1x1024_S4096x1024_0_1 (broadcastInDim S1x1024 ![1] bcast_S1024_S1x1024_1 (V0 (Proc.devRef .tc main_arg9))))
          (ix2 r q)) = _
  rw [logistic_spelled_apply, gateArr_apply V0 3 _ (3 : Fin 4) rfl, cellNorm_apply]
  rfl

end Hidden

/-- Every weakly fair execution of the idealized reference ends with its first result at `hiddenArray` and its second at
    `cellArray` of the argument arrays, the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v86)
          = hiddenArray (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_v54)
          = cellArray (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9) := by
  refine (θ_run _ _ _).mono (fun r h c => ⟨(h c).1.trans ?_, (h c).2.1.trans ?_, (h c).2.2⟩)
    (Cert.ReferenceIdeal.Value.run (F := Ideal) m ρ)
  · funext i
    obtain ⟨p, q, rfl⟩ : ∃ (p : Fin 4096) (q : Fin 1024), i = ix2 p q := ⟨i 0, i 1, eq_ix2 i⟩
    exact hidden_apply (Idealize.ShloMosaic.StableHlo.launchContents m c) p q
  · funext i
    obtain ⟨p, q, rfl⟩ : ∃ (p : Fin 4096) (q : Fin 1024), i = ix2 p q := ⟨i 0, i 1, eq_ix2 i⟩
    exact cell_apply (Idealize.ShloMosaic.StableHlo.launchContents m c) p q

end Cert.RefRun

end
-- ==== Proof.lean ====
/-
  A layer-normalised LSTM cell: a Pallas kernel that handles 128 batch rows per grid point against a jnp reference
  that handles all 4096 rows at once.

  Both compute, for every batch row, the 4096 pre-activations `h W_h + x W_x + b`, layer-normalise each of the four
  gates' 1024 columns with its own scale and shift, form the new cell row
  `logistic(f) * c + logistic(i) * tanh(g)`, and the new hidden row `logistic(o) * tanh(LN(c'))`. On the extended reals
  the two programs differ only in arrangement: the kernel adds the bias after the second matrix product and the
  reference before it (addition is commutative and associative, also at the infinities); the kernel changes its matrix
  operands' float format first (the identity here); the kernel has the logistic function as one operation where the
  reference spells `1 / (1 + exp(-v))`, which is that operation's definition; the kernel slices the gates out of a
  [128, 4096] block by columns where the reference reshapes to [4096, 4, 1024] and slices the middle axis. Row length
  and variance floor are the same binary words on both sides. So no step needs the inputs to be finite.

  Proof/Spec.lean states the two result arrays as functions of the argument arrays, row by row. Proof/KernelRun.lean
  shows the kernel's run ends at them (over Proof/BlockValue.lean: what one grid point writes), Proof/RefRun.lean that
  the reference's run does. The two frames of the kernel are the generated ones; the reference's frame is its run with
  the results dropped; the kernel's idealization rewrote nothing.
-/
import proofs.«119302_j47742856462402_1_alg».proof.Defs
import proofs.«119302_j47742856462402_1_alg».proof.Proof.Gen.Kernel
import proofs.«119302_j47742856462402_1_alg».proof.Proof.Gen.Kernel.Skeleton
import proofs.«119302_j47742856462402_1_alg».proof.Proof.Gen.Kernel.Launch
import proofs.«119302_j47742856462402_1_alg».proof.Proof.Gen.Kernel.Points
import proofs.«119302_j47742856462402_1_alg».proof.Proof.Gen.Kernel.Frame
import proofs.«119302_j47742856462402_1_alg».proof.Proof.Gen.KernelIdeal
import proofs.«119302_j47742856462402_1_alg».proof.Proof.Gen.KernelIdeal.Skeleton
import proofs.«119302_j47742856462402_1_alg».proof.Proof.Gen.KernelIdeal.Launch
import proofs.«119302_j47742856462402_1_alg».proof.Proof.Gen.KernelIdeal.Points
import proofs.«119302_j47742856462402_1_alg».proof.Proof.Gen.KernelIdeal.Frame
import proofs.«119302_j47742856462402_1_alg».proof.Proof.Gen.ReferenceIdeal
import proofs.«119302_j47742856462402_1_alg».proof.Proof.Gen.Pre_finite_inputs
import proofs.«119302_j47742856462402_1_alg».proof.Proof.KernelBlocks
import proofs.«119302_j47742856462402_1_alg».proof.Proof.Gen.ReferenceIdeal.Run
import proofs.«119302_j47742856462402_1_alg».proof.Proof.KernelRun
import proofs.«119302_j47742856462402_1_alg».proof.Proof.RefRun
import Idealize.ShloMosaic.Adequacy
import Idealize.ShloMosaic.Init

noncomputable section

namespace Cert.Proof

open Idealize.ShloMosaic Idealize.ShloMosaic.TcCoe Idealize.SL.Sem Cert.LstmSpec

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's run leaves its arguments as they were: its run, with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both runs end with the hidden result at `hiddenArray` and the cell result at `cellArray` of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => hiddenArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => cellArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelRun.kernel_run m ρ, ?_⟩
  refine (θ_run Cert.ReferenceIdeal.defs _ _).mono (fun r h c => ?_) (Cert.RefRun.ref_run m' ρ')
  obtain ⟨h0, h1, h2, h3, h4, h5, h6, h7, h8, h9⟩ := hagree c
  obtain ⟨hv0, hv1, hk⟩ := h c
  refine ⟨?_, ?_, hk⟩
  · rw [hv0, h0, h1, h2, h3, h4, h5, h6, h7, h8, h9]
  · rw [hv1, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
